-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x1 : Shape := ⟨2, ![16384, 1]⟩
abbrev S4096 : Shape := ⟨1, ![4096]⟩
abbrev S50000x256 : Shape := ⟨2, ![50000, 256]⟩
abbrev S50000 : Shape := ⟨1, ![50000]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S50000 : S_.BroadcastsInDim S50000 (![] : Fin 0 → Fin S50000.rank)
  reducesTo_S50000_S_d0 : S50000.ReducesTo [0] S_
  bcast_S_S16384x1 : S_.BroadcastsInDim S16384x1 (![] : Fin 0 → Fin S16384x1.rank)
  reducesTo_S16384x1_S_d0_1 : S16384x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg1 : IVec S16384x1 32) (main_arg2 : IVec S4096 32) (main_v13 : IVec S_ 1) (main_v15 : IVec S16384x1 1) (main_c_5 : IVec S_ 32) : IVec S_ 1 :=
  let main_v16 : IVec S16384x1 32 := broadcastInDim S16384x1 ![] bcast_S_S16384x1 main_c_5
  let main_v17 : IVec S16384x1 1 := cmpi .slt main_arg1 main_v16
  let main_v18 : IVec S16384x1 1 := andi main_v15 main_v17
  let main_c_6 : IVec S_ 1 := constantI S_ 1 1#1
  let main_v19 : IVec S_ 1 := (fun x v => Host.reduce IntOp.andi x v reducesTo_S16384x1_S_d0_1 h_S_) main_v18 main_c_6
  let main_v20 : IVec S_ 1 := andi main_v13 main_v19
  let main_c_7 : IVec S_ 32 := constantI S_ 32 0#32
  let main_v21 : IVec S4096 32 := broadcastInDim S4096 ![] bcast_S_S4096 main_c_7
  let main_v22 : IVec S4096 1 := cmpi .sge main_arg2 main_v21
  let main_c_8 : IVec S_ 32 := constantI S_ 32 50000#32
  let main_v23 : IVec S4096 32 := broadcastInDim S4096 ![] bcast_S_S4096 main_c_8
  let main_v24 : IVec S4096 1 := cmpi .slt main_arg2 main_v23
  let main_v25 : IVec S4096 1 := andi main_v22 main_v24
  let main_c_9 : IVec S_ 1 := constantI S_ 1 1#1
  let main_v26 : IVec S_ 1 := (fun x v => Host.reduce IntOp.andi x v reducesTo_S4096_S_d0 h_S_) main_v25 main_c_9
  let main_v27 : IVec S_ 1 := andi main_v20 main_v26
  main_v27

def fn {F : FTy → Type} [FloatOps F] (main_arg0 : FVec F S16384x256 .f32) (main_arg1 : IVec S16384x1 32) (main_arg2 : IVec S4096 32) (main_arg3 : FVec F S50000x256 .f32) (main_arg4 : FVec F S50000 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S50000x256 .f32 := Host.absf main_arg3
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S50000 .f32 := Host.absf main_arg4
  let main_cst_2 : FVec F S_ .f32 := constant S_ .f32 0x7F800000#32
  let main_v10 : FVec F S50000 .f32 := broadcastInDim S50000 ![] bcast_S_S50000 main_cst_2
  let main_v11 : IVec S50000 1 := cmpf .olt main_v9 main_v10
  let main_c_3 : IVec S_ 1 := constantI S_ 1 1#1
  let main_v12 : IVec S_ 1 := (fun x v => Host.reduce IntOp.andi x v reducesTo_S50000_S_d0 h_S_) main_v11 main_c_3
  let main_v13 : IVec S_ 1 := andi main_v8 main_v12
  let main_c_4 : IVec S_ 32 := constantI S_ 32 0#32
  let main_v14 : IVec S16384x1 32 := broadcastInDim S16384x1 ![] bcast_S_S16384x1 main_c_4
  let main_v15 : IVec S16384x1 1 := cmpi .sge main_arg1 main_v14
  let main_c_5 : IVec S_ 32 := constantI S_ 32 50000#32
  fn_part1 (F := F) main_arg1 main_arg2 main_v13 main_v15 main_c_5
-- ==== Kernel.lean ====
abbrev S16384x256 : Shape := ⟨2, ![16384, 256]⟩
abbrev S16384x1 : Shape := ⟨2, ![16384, 1]⟩
abbrev S4096 : Shape := ⟨1, ![4096]⟩
abbrev S50000x256 : Shape := ⟨2, ![50000, 256]⟩
abbrev S50000 : Shape := ⟨1, ![50000]⟩
abbrev S16384 : Shape := ⟨1, ![16384]⟩
abbrev S_ : Shape := ⟨0, ![]⟩
abbrev S1 : Shape := ⟨1, ![1]⟩
abbrev S1x1 : Shape := ⟨2, ![1, 1]⟩
abbrev S4096x1 : Shape := ⟨2, ![4096, 1]⟩
abbrev S4096x256 : Shape := ⟨2, ![4096, 256]⟩
abbrev S1x4096 : Shape := ⟨2, ![1, 4096]⟩
abbrev S256x4096 : Shape := ⟨2, ![256, 4096]⟩
abbrev S1024x256 : Shape := ⟨2, ![1024, 256]⟩
abbrev S1024x1 : Shape := ⟨2, ![1024, 1]⟩
abbrev S1024 : Shape := ⟨1, ![1024]⟩
abbrev S256x1024 : Shape := ⟨2, ![256, 1024]⟩
abbrev S1x1024 : Shape := ⟨2, ![1, 1024]⟩
abbrev S1024x1024 : Shape := ⟨2, ![1024, 1024]⟩

abbrev nBuf : Space → Nat
  | .hbm => 155
  | .vmem => 10
  | .smem => 0
  | _ => 0

abbrev hbmTy0_0 (i : Nat) : BufTy := match i % 128 with
  | 0 => ⟨S16384x256, .f32⟩
  | 1 => ⟨S16384x1, .i32⟩
  | 2 => ⟨S4096, .i32⟩
  | 3 => ⟨S50000x256, .f32⟩
  | 4 => ⟨S50000, .f32⟩
  | 5 => ⟨S16384, .i32⟩
  | 6 => ⟨S16384, .f32⟩
  | 7 => ⟨S_, .f32⟩
  | 8 => ⟨S16384, .f32⟩
  | 9 => ⟨S16384, .f32⟩
  | 10 => ⟨S16384, .f32⟩
  | 11 => ⟨S_, .f32⟩
  | 12 => ⟨S16384, .f32⟩
  | 13 => ⟨S16384, .f32⟩
  | 14 => ⟨S16384, .f32⟩
  | 15 => ⟨S16384, .f32⟩
  | 16 => ⟨S_, .f32⟩
  | 17 => ⟨S_, .f32⟩
  | 18 => ⟨S_, .f32⟩
  | 19 => ⟨S16384, .f32⟩
  | 20 => ⟨S16384, .f32⟩
  | 21 => ⟨S16384, .f32⟩
  | 22 => ⟨S16384, .f32⟩
  | 23 => ⟨S_, .f32⟩
  | 24 => ⟨S16384, .f32⟩
  | 25 => ⟨S16384, .f32⟩
  | 26 => ⟨S16384, .f32⟩
  | 27 => ⟨S16384, .f32⟩
  | 28 => ⟨S16384, .f32⟩
  | 29 => ⟨S4096, .f32⟩
  | 30 => ⟨S_, .f32⟩
  | 31 => ⟨S4096, .f32⟩
  | 32 => ⟨S4096, .f32⟩
  | 33 => ⟨S4096, .f32⟩
  | 34 => ⟨S_, .f32⟩
  | 35 => ⟨S4096, .f32⟩
  | 36 => ⟨S4096, .f32⟩
  | 37 => ⟨S4096, .f32⟩
  | 38 => ⟨S4096, .f32⟩
  | 39 => ⟨S_, .f32⟩
  | 40 => ⟨S_, .f32⟩
  | 41 => ⟨S_, .f32⟩
  | 42 => ⟨S4096, .f32⟩
  | 43 => ⟨S4096, .f32⟩
  | 44 => ⟨S4096, .f32⟩
  | 45 => ⟨S4096, .f32⟩
  | 46 => ⟨S_, .f32⟩
  | 47 => ⟨S4096, .f32⟩
  | 48 => ⟨S4096, .f32⟩
  | 49 => ⟨S4096, .f32⟩
  | 50 => ⟨S4096, .f32⟩
  | 51 => ⟨S4096, .f32⟩
  | 52 => ⟨S_, .i32⟩
  | 53 => ⟨S16384, .i32⟩
  | 54 => ⟨S16384, .i1⟩
  | 55 => ⟨S_, .i32⟩
  | 56 => ⟨S16384, .i32⟩
  | 57 => ⟨S16384, .i32⟩
  | 58 => ⟨S16384, .i32⟩
  | 59 => ⟨S16384x1, .i32⟩
  | 60 => ⟨S1, .i32⟩
  | 61 => ⟨S_, .i32⟩
  | 62 => ⟨S16384x1, .i32⟩
  | 63 => ⟨S16384x1, .i1⟩
  | 64 => ⟨S1x1, .i32⟩
  | 65 => ⟨S16384x1, .i32⟩
  | 66 => ⟨S16384x1, .i1⟩
  | 67 => ⟨S16384x1, .i1⟩
  | 68 => ⟨S_, .i1⟩
  | 69 => ⟨S16384, .i1⟩
  | 70 => ⟨S16384x256, .f32⟩
  | 71 => ⟨S16384x256, .i1⟩
  | 72 => ⟨S_, .f32⟩
  | 73 => ⟨S16384x256, .f32⟩
  | 74 => ⟨S16384x256, .f32⟩
  | 75 => ⟨S16384x256, .bf16⟩
  | 76 => ⟨S_, .i32⟩
  | 77 => ⟨S16384, .i32⟩
  | 78 => ⟨S16384, .i1⟩
  | 79 => ⟨S_, .i32⟩
  | 80 => ⟨S16384, .i32⟩
  | 81 => ⟨S16384, .i32⟩
  | 82 => ⟨S16384, .i32⟩
  | 83 => ⟨S16384x1, .i32⟩
  | 84 => ⟨S1, .i32⟩
  | 85 => ⟨S_, .i32⟩
  | 86 => ⟨S16384x1, .i32⟩
  | 87 => ⟨S16384x1, .i1⟩
  | 88 => ⟨S1x1, .i32⟩
  | 89 => ⟨S16384x1, .i32⟩
  | 90 => ⟨S16384x1, .i1⟩
  | 91 => ⟨S16384x1, .i1⟩
  | 92 => ⟨S_, .i1⟩
  | 93 => ⟨S16384, .i1⟩
  | 94 => ⟨S16384, .f32⟩
  | 95 => ⟨S_, .f32⟩
  | 96 => ⟨S16384, .f32⟩
  | 97 => ⟨S16384, .f32⟩
  | 98 => ⟨S16384, .f32⟩
  | 99 => ⟨S16384x1, .f32⟩
  | 100 => ⟨S_, .i32⟩
  | 101 => ⟨S4096, .i32⟩
  | 102 => ⟨S4096, .i1⟩
  | 103 => ⟨S_, .i32⟩
  | 104 => ⟨S4096, .i32⟩
  | 105 => ⟨S4096, .i32⟩
  | 106 => ⟨S4096, .i32⟩
  | 107 => ⟨S4096x1, .i32⟩
  | 108 => ⟨S1, .i32⟩
  | 109 => ⟨S_, .i32⟩
  | 110 => ⟨S4096x1, .i32⟩
  | 111 => ⟨S4096x1, .i1⟩
  | 112 => ⟨S1x1, .i32⟩
  | 113 => ⟨S4096x1, .i32⟩
  | 114 => ⟨S4096x1, .i1⟩
  | 115 => ⟨S4096x1, .i1⟩
  | 116 => ⟨S_, .i1⟩
  | 117 => ⟨S4096, .i1⟩
  | 118 => ⟨S4096x256, .f32⟩
  | 119 => ⟨S4096x256, .i1⟩
  | 120 => ⟨S_, .f32⟩
  | 121 => ⟨S4096x256, .f32⟩
  | 122 => ⟨S4096x256, .f32⟩
  | 123 => ⟨S_, .i32⟩
  | 124 => ⟨S4096, .i32⟩
  | 125 => ⟨S4096, .i1⟩
  | 126 => ⟨S_, .i32⟩
  | 127 => ⟨S4096, .i32⟩
  | _ => ⟨S16384x256, .f32⟩

abbrev hbmTy0_1 (i : Nat) : BufTy := match i % 128 with
  | 0 => ⟨S4096, .i32⟩
  | 1 => ⟨S4096, .i32⟩
  | 2 => ⟨S4096x1, .i32⟩
  | 3 => ⟨S1, .i32⟩
  | 4 => ⟨S_, .i32⟩
  | 5 => ⟨S4096x1, .i32⟩
  | 6 => ⟨S4096x1, .i1⟩
  | 7 => ⟨S1x1, .i32⟩
  | 8 => ⟨S4096x1, .i32⟩
  | 9 => ⟨S4096x1, .i1⟩
  | 10 => ⟨S4096x1, .i1⟩
  | 11 => ⟨S_, .i1⟩
  | 12 => ⟨S4096, .i1⟩
  | 13 => ⟨S4096, .f32⟩
  | 14 => ⟨S_, .f32⟩
  | 15 => ⟨S4096, .f32⟩
  | 16 => ⟨S4096, .f32⟩
  | 17 => ⟨S4096, .f32⟩
  | 18 => ⟨S1x4096, .f32⟩
  | 19 => ⟨S256x4096, .f32⟩
  | 20 => ⟨S256x4096, .bf16⟩
  | 21 => ⟨S16384x1, .f32⟩
  | 22 => ⟨S16384, .f32⟩
  | 23 => ⟨S_, .f32⟩
  | 24 => ⟨S_, .f32⟩
  | 25 => ⟨S_, .f32⟩
  | 26 => ⟨S_, .f32⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S1024x1, .f32⟩
  | .local _ .vmem, ⟨5, _⟩ => ⟨S1024x1, .f32⟩
  | .local _ .vmem, ⟨6, _⟩ => ⟨S256x4096, .bf16⟩
  | .local _ .vmem, ⟨7, _⟩ => ⟨S1x4096, .f32⟩
  | .local _ .vmem, ⟨8, _⟩ => ⟨S1024x1, .f32⟩
  | .local _ .vmem, ⟨9, _⟩ => ⟨S1024x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call0_c : Ref sig .tc := ⟨.hbm, 52, rfl⟩
abbrev main_call0_v0 : Ref sig .tc := ⟨.hbm, 53, rfl⟩
abbrev main_call0_v1 : Ref sig .tc := ⟨.hbm, 54, rfl⟩
abbrev main_call0_c_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_c_1 : Ref sig .tc := ⟨.hbm, 60, rfl⟩
abbrev main_call0_c_2 : Ref sig .tc := ⟨.hbm, 61, rfl⟩
abbrev main_call0_v6 : Ref sig .tc := ⟨.hbm, 62, rfl⟩
abbrev main_call0_v7 : Ref sig .tc := ⟨.hbm, 63, rfl⟩
abbrev main_call0_v8 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_c_3 : Ref sig .tc := ⟨.hbm, 68, rfl⟩
abbrev main_call0_v12 : Ref sig .tc := ⟨.hbm, 69, rfl⟩
abbrev main_call0_v13 : Ref sig .tc := ⟨.hbm, 70, rfl⟩
abbrev main_call0_v14 : Ref sig .tc := ⟨.hbm, 71, rfl⟩
abbrev main_call0_cst : Ref sig .tc := ⟨.hbm, 72, rfl⟩
abbrev main_call0_v15 : Ref sig .tc := ⟨.hbm, 73, rfl⟩
abbrev main_v39 : Ref sig .tc := ⟨.hbm, 74, rfl⟩
abbrev main_v40 : Ref sig .tc := ⟨.hbm, 75, rfl⟩
abbrev main_call1_c : Ref sig .tc := ⟨.hbm, 76, rfl⟩
abbrev main_call1_v0 : Ref sig .tc := ⟨.hbm, 77, rfl⟩
abbrev main_call1_v1 : Ref sig .tc := ⟨.hbm, 78, rfl⟩
abbrev main_call1_c_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_c_1 : Ref sig .tc := ⟨.hbm, 84, rfl⟩
abbrev main_call1_c_2 : Ref sig .tc := ⟨.hbm, 85, rfl⟩
abbrev main_call1_v6 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_c_3 : Ref sig .tc := ⟨.hbm, 92, rfl⟩
abbrev main_call1_v12 : Ref sig .tc := ⟨.hbm, 93, rfl⟩
abbrev main_call1_v13 : Ref sig .tc := ⟨.hbm, 94, rfl⟩
abbrev main_call1_cst : Ref sig .tc := ⟨.hbm, 95, rfl⟩
abbrev main_call1_v14 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_call2_c : Ref sig .tc := ⟨.hbm, 100, rfl⟩
abbrev main_call2_v0 : Ref sig .tc := ⟨.hbm, 101, rfl⟩
abbrev main_call2_v1 : Ref sig .tc := ⟨.hbm, 102, rfl⟩
abbrev main_call2_c_0 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_c_1 : Ref sig .tc := ⟨.hbm, 108, rfl⟩
abbrev main_call2_c_2 : Ref sig .tc := ⟨.hbm, 109, rfl⟩
abbrev main_call2_v6 : Ref sig .tc := ⟨.hbm, 110, rfl⟩
abbrev main_call2_v7 : Ref sig .tc := ⟨.hbm, 111, rfl⟩
abbrev main_call2_v8 : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_call2_c_3 : Ref sig .tc := ⟨.hbm, 116, rfl⟩
abbrev main_call2_v12 : Ref sig .tc := ⟨.hbm, 117, rfl⟩
abbrev main_call2_v13 : Ref sig .tc := ⟨.hbm, 118, rfl⟩
abbrev main_call2_v14 : Ref sig .tc := ⟨.hbm, 119, rfl⟩
abbrev main_call2_cst : Ref sig .tc := ⟨.hbm, 120, rfl⟩
abbrev main_call2_v15 : Ref sig .tc := ⟨.hbm, 121, rfl⟩
abbrev main_v44 : Ref sig .tc := ⟨.hbm, 122, rfl⟩
abbrev main_call3_c : Ref sig .tc := ⟨.hbm, 123, rfl⟩
abbrev main_call3_v0 : Ref sig .tc := ⟨.hbm, 124, rfl⟩
abbrev main_call3_v1 : Ref sig .tc := ⟨.hbm, 125, rfl⟩
abbrev main_call3_c_0 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_call3_v5 : Ref sig .tc := ⟨.hbm, 130, rfl⟩
abbrev main_call3_c_1 : Ref sig .tc := ⟨.hbm, 131, rfl⟩
abbrev main_call3_c_2 : Ref sig .tc := ⟨.hbm, 132, rfl⟩
abbrev main_call3_v6 : Ref sig .tc := ⟨.hbm, 133, rfl⟩
abbrev main_call3_v7 : Ref sig .tc := ⟨.hbm, 134, rfl⟩
abbrev main_call3_v8 : Ref sig .tc := ⟨.hbm, 135, rfl⟩
abbrev main_call3_v9 : Ref sig .tc := ⟨.hbm, 136, rfl⟩
abbrev main_call3_v10 : Ref sig .tc := ⟨.hbm, 137, rfl⟩
abbrev main_call3_v11 : Ref sig .tc := ⟨.hbm, 138, rfl⟩
abbrev main_call3_c_3 : Ref sig .tc := ⟨.hbm, 139, rfl⟩
abbrev main_call3_v12 : Ref sig .tc := ⟨.hbm, 140, rfl⟩
abbrev main_call3_v13 : Ref sig .tc := ⟨.hbm, 141, rfl⟩
abbrev main_call3_cst : Ref sig .tc := ⟨.hbm, 142, rfl⟩
abbrev main_call3_v14 : Ref sig .tc := ⟨.hbm, 143, rfl⟩
abbrev main_v45 : Ref sig .tc := ⟨.hbm, 144, rfl⟩
abbrev main_v46 : Ref sig .tc := ⟨.hbm, 145, rfl⟩
abbrev main_v47 : Ref sig .tc := ⟨.hbm, 146, rfl⟩
abbrev main_v48 : Ref sig .tc := ⟨.hbm, 147, rfl⟩
abbrev main_v49 : Ref sig .tc := ⟨.hbm, 148, rfl⟩
abbrev main_v50 : Ref sig .tc := ⟨.hbm, 149, rfl⟩
abbrev main_v51 : Ref sig .tc := ⟨.hbm, 150, rfl⟩
abbrev main_cst_7 : Ref sig .tc := ⟨.hbm, 151, rfl⟩
abbrev main_v52 : Ref sig .tc := ⟨.hbm, 152, rfl⟩
abbrev main_cst_8 : Ref sig .tc := ⟨.hbm, 153, rfl⟩
abbrev main_v53 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v21 : BitVec 32 := Scalar.addi c0_i32 c4_i32
  let c1_i32 : BitVec 32 := 1#32
  ⟨c0_i32, v21, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c1024_i32 : BitVec 32 := 1024#32
  let v25 : BitVec 32 := Scalar.muli arg7 c1024_i32
  v25
def k0_off1 (k0_t1 : Fin k0_t1_loop.trips) : Fin 2 → Nat :=
  let c0_11 : Index := 0#32
  let c0_i32 : BitVec 32 := 0#32
  let c1_i32 : BitVec 32 := 1#32
  let arg7 : BitVec 32 := Scf.iv c0_i32 c1_i32 k0_t1
  let c1024_i32 : BitVec 32 := 1024#32
  let v25 : BitVec 32 := Scalar.muli arg7 c1024_i32
  let v26 : BitVec 32 := v25
  let v27 : Index := Scalar.indexCast v26
  ![0, v27.toNat]
def k0_off2 (k0_t1 : Fin k0_t1_loop.trips) : Fin 2 → Nat :=
  let c0_12 : Index := 0#32
  let c0_i32 : BitVec 32 := 0#32
  let c1_i32 : BitVec 32 := 1#32
  let arg7 : BitVec 32 := Scf.iv c0_i32 c1_i32 k0_t1
  let c1024_i32 : BitVec 32 := 1024#32
  let v25 : BitVec 32 := Scalar.muli arg7 c1024_i32
  let v26 : BitVec 32 := v25
  let v30 : Index := Scalar.indexCast v26
  ![0, v30.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16384x1_S16384 : S16384x1.ShapeCasts S16384
  bcast_S_S16384 : S_.BroadcastsInDim S16384 (![] : Fin 0 → Fin S16384.rank)
  bcast_S_S4096 : S_.BroadcastsInDim S4096 (![] : Fin 0 → Fin S4096.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x256_0 : S16384.BroadcastsInDim S16384x256 (![0] : Fin 1 → Fin S16384x256.rank)
  bcast_S_S16384x256 : S_.BroadcastsInDim S16384x256 (![] : Fin 0 → Fin S16384x256.rank)
  bitsLt_bf16_f32 : FTy.bits .bf16 < FTy.bits .f32
  shapeCasts_S16384_S16384x1 : S16384.ShapeCasts S16384x1
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1x1_S4096x1_0_1 : S1x1.BroadcastsInDim S4096x1 (![0, 1] : Fin 2 → Fin S4096x1.rank)
  reducesTo_S4096x1_S4096_d1 : S4096x1.ReducesTo [1] S4096
  bcast_S4096_S4096x256_0 : S4096.BroadcastsInDim S4096x256 (![0] : Fin 1 → Fin S4096x256.rank)
  bcast_S_S4096x256 : S_.BroadcastsInDim S4096x256 (![] : Fin 0 → Fin S4096x256.rank)
  shapeCasts_S4096_S1x4096 : S4096.ShapeCasts S1x4096
  transposes_S4096x256_S256x4096_1_0 : S4096x256.Transposes [1, 0] S256x4096
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x256_S1024 : S1024x256.Reduces [1] S1024
  shapeCasts_S1024_S1024x1 : S1024.ShapeCasts S1024x1
  h_S256x1024 : 0 < S256x1024.numel
  shapeCasts_S256x1024_S256x1024 : S256x1024.ShapeCasts S256x1024
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  reducesTo_S16384_S_d0 : S16384.ReducesTo [0] S_
  gather_S50000x256_S16384x1_S16384x256_1_0_n_n_0_1_1256_wf : GatherDims.WF S50000x256 S16384x1 S16384x256 [1] [0] [] [0] [] 1 ![1, 256]
  gather_S50000_S16384x1_S16384_n_0_n_n_0_1_1_wf : GatherDims.WF S50000 S16384x1 S16384 [] [0] [] [0] [] 1 ![1]
  gather_S50000x256_S4096x1_S4096x256_1_0_n_n_0_1_1256_wf : GatherDims.WF S50000x256 S4096x1 S4096x256 [1] [0] [] [0] [] 1 ![1, 256]
  gather_S50000_S4096x1_S4096_n_0_n_n_0_1_1_wf : GatherDims.WF S50000 S4096x1 S4096 [] [0] [] [0] [] 1 ![1]
  dot_S1024x256_S256x1024_S1024x1024_1_0_0_1_n_n_wf : DotDims.WF S1024x256 S256x1024 S1024x1024 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S256x1024.size a ≤ S256x4096.size a
  k0_off2_inb : ∀ k0_t1 : Fin k0_t1_loop.trips, ∀ a, (k0_off2 k0_t1) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S16384x256.size a
  hwx0_1 : ∀ i : grid0.Coords, EltTy.bits .bf16 = 32 ∨ (Rect.block (s := S16384x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S256x4096.size a
  hwx0_3 : ∀ i : grid0.Coords, EltTy.bits .bf16 = 32 ∨ (Rect.block (s := S256x4096) S256x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S16384x1.size a
  hwx0_5 : ∀ i : grid0.Coords, EltTy.bits .f32 = 32 ∨ (Rect.block (s := S16384x1) S1024x1.size (cc0_transform_5 i) (hinb0_5 i)).WholeWords (EltTy.packing .f32)

variable [Facts₀]

def gather_S50000x256_S16384x1_S16384x256_1_0_n_n_0_1_1256 : GatherDims S50000x256 S16384x1 S16384x256 where
  offsetDims := [1]
  collapsedSliceDims := [0]
  operandBatchingDims := []
  startIndicesBatchingDims := []
  startIndexMap := [0]
  indexVectorDim := 1
  sliceSizes := ![1, 256]
  wf := gather_S50000x256_S16384x1_S16384x256_1_0_n_n_0_1_1256_wf
def gather_S50000_S16384x1_S16384_n_0_n_n_0_1_1 : GatherDims S50000 S16384x1 S16384 where
  offsetDims := []
  collapsedSliceDims := [0]
  operandBatchingDims := []
  startIndicesBatchingDims := []
  startIndexMap := [0]
  indexVectorDim := 1
  sliceSizes := ![1]
  wf := gather_S50000_S16384x1_S16384_n_0_n_n_0_1_1_wf
def gather_S50000x256_S4096x1_S4096x256_1_0_n_n_0_1_1256 : GatherDims S50000x256 S4096x1 S4096x256 where
  offsetDims := [1]
  collapsedSliceDims := [0]
  operandBatchingDims := []
  startIndicesBatchingDims := []
  startIndexMap := [0]
  indexVectorDim := 1
  sliceSizes := ![1, 256]
  wf := gather_S50000x256_S4096x1_S4096x256_1_0_n_n_0_1_1256_wf
def gather_S50000_S4096x1_S4096_n_0_n_n_0_1_1 : GatherDims S50000 S4096x1 S4096 where
  offsetDims := []
  collapsedSliceDims := [0]
  operandBatchingDims := []
  startIndicesBatchingDims := []
  startIndexMap := [0]
  indexVectorDim := 1
  sliceSizes := ![1]
  wf := gather_S50000_S4096x1_S4096_n_0_n_n_0_1_1_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v49) S256x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v47) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v50) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x256 : Shape := ⟨2, ![16384, 256]⟩
abbrev S16384x1 : Shape := ⟨2, ![16384, 1]⟩
abbrev S4096 : Shape := ⟨1, ![4096]⟩
abbrev S50000x256 : Shape := ⟨2, ![50000, 256]⟩
abbrev S50000 : Shape := ⟨1, ![50000]⟩
abbrev S16384 : Shape := ⟨1, ![16384]⟩
abbrev S_ : Shape := ⟨0, ![]⟩
abbrev S4096x1 : Shape := ⟨2, ![4096, 1]⟩
abbrev S4096x256 : Shape := ⟨2, ![4096, 256]⟩
abbrev S16384x4096 : Shape := ⟨2, ![16384, 4096]⟩
abbrev S1x4096 : Shape := ⟨2, ![1, 4096]⟩

abbrev nBuf : Space → Nat
  | .hbm => 131
  | .vmem => 0
  | .smem => 0
  | _ => 0

abbrev hbmTy0_0 (i : Nat) : BufTy := match i % 128 with
  | 0 => ⟨S16384x256, .f32⟩
  | 1 => ⟨S16384x1, .i32⟩
  | 2 => ⟨S4096, .i32⟩
  | 3 => ⟨S50000x256, .f32⟩
  | 4 => ⟨S50000, .f32⟩
  | 5 => ⟨S16384, .i32⟩
  | 6 => ⟨S_, .i32⟩
  | 7 => ⟨S16384, .i32⟩
  | 8 => ⟨S16384, .i1⟩
  | 9 => ⟨S_, .i32⟩
  | 10 => ⟨S16384, .i32⟩
  | 11 => ⟨S16384, .i32⟩
  | 12 => ⟨S16384, .i32⟩
  | 13 => ⟨S16384x1, .i32⟩
  | 14 => ⟨S16384x256, .f32⟩
  | 15 => ⟨S16384x256, .f32⟩
  | 16 => ⟨S_, .f32⟩
  | 17 => ⟨S16384, .f32⟩
  | 18 => ⟨S_, .i32⟩
  | 19 => ⟨S16384, .i32⟩
  | 20 => ⟨S16384, .i1⟩
  | 21 => ⟨S_, .i32⟩
  | 22 => ⟨S16384, .i32⟩
  | 23 => ⟨S16384, .i32⟩
  | 24 => ⟨S16384, .i32⟩
  | 25 => ⟨S16384x1, .i32⟩
  | 26 => ⟨S16384, .f32⟩
  | 27 => ⟨S16384, .f32⟩
  | 28 => ⟨S16384, .f32⟩
  | 29 => ⟨S_, .f32⟩
  | 30 => ⟨S16384, .f32⟩
  | 31 => ⟨S16384, .f32⟩
  | 32 => ⟨S16384, .f32⟩
  | 33 => ⟨S_, .f32⟩
  | 34 => ⟨S16384, .f32⟩
  | 35 => ⟨S16384, .f32⟩
  | 36 => ⟨S16384, .f32⟩
  | 37 => ⟨S16384, .f32⟩
  | 38 => ⟨S_, .f32⟩
  | 39 => ⟨S_, .f32⟩
  | 40 => ⟨S_, .f32⟩
  | 41 => ⟨S16384, .f32⟩
  | 42 => ⟨S16384, .f32⟩
  | 43 => ⟨S16384, .f32⟩
  | 44 => ⟨S16384, .f32⟩
  | 45 => ⟨S_, .f32⟩
  | 46 => ⟨S16384, .f32⟩
  | 47 => ⟨S16384, .f32⟩
  | 48 => ⟨S16384, .f32⟩
  | 49 => ⟨S16384, .f32⟩
  | 50 => ⟨S16384, .f32⟩
  | 51 => ⟨S16384, .f32⟩
  | 52 => ⟨S_, .i32⟩
  | 53 => ⟨S4096, .i32⟩
  | 54 => ⟨S4096, .i1⟩
  | 55 => ⟨S_, .i32⟩
  | 56 => ⟨S4096, .i32⟩
  | 57 => ⟨S4096, .i32⟩
  | 58 => ⟨S4096, .i32⟩
  | 59 => ⟨S4096x1, .i32⟩
  | 60 => ⟨S4096x256, .f32⟩
  | 61 => ⟨S16384x4096, .f32⟩
  | 62 => ⟨S_, .i32⟩
  | 63 => ⟨S4096, .i32⟩
  | 64 => ⟨S4096, .i1⟩
  | 65 => ⟨S_, .i32⟩
  | 66 => ⟨S4096, .i32⟩
  | 67 => ⟨S4096, .i32⟩
  | 68 => ⟨S4096, .i32⟩
  | 69 => ⟨S4096x1, .i32⟩
  | 70 => ⟨S4096, .f32⟩
  | 71 => ⟨S1x4096, .f32⟩
  | 72 => ⟨S16384x4096, .f32⟩
  | 73 => ⟨S16384x4096, .f32⟩
  | 74 => ⟨S4096, .f32⟩
  | 75 => ⟨S_, .f32⟩
  | 76 => ⟨S4096, .f32⟩
  | 77 => ⟨S4096, .f32⟩
  | 78 => ⟨S4096, .f32⟩
  | 79 => ⟨S_, .f32⟩
  | 80 => ⟨S4096, .f32⟩
  | 81 => ⟨S4096, .f32⟩
  | 82 => ⟨S4096, .f32⟩
  | 83 => ⟨S4096, .f32⟩
  | 84 => ⟨S_, .f32⟩
  | 85 => ⟨S_, .f32⟩
  | 86 => ⟨S_, .f32⟩
  | 87 => ⟨S4096, .f32⟩
  | 88 => ⟨S4096, .f32⟩
  | 89 => ⟨S4096, .f32⟩
  | 90 => ⟨S4096, .f32⟩
  | 91 => ⟨S_, .f32⟩
  | 92 => ⟨S4096, .f32⟩
  | 93 => ⟨S4096, .f32⟩
  | 94 => ⟨S4096, .f32⟩
  | 95 => ⟨S4096, .f32⟩
  | 96 => ⟨S4096, .f32⟩
  | 97 => ⟨S1x4096, .f32⟩
  | 98 => ⟨S16384x4096, .f32⟩
  | 99 => ⟨S16384x4096, .f32⟩
  | 100 => ⟨S_, .f32⟩
  | 101 => ⟨S16384, .f32⟩
  | 102 => ⟨S16384, .f32⟩
  | 103 => ⟨S_, .f32⟩
  | 104 => ⟨S16384, .f32⟩
  | 105 => ⟨S16384, .f32⟩
  | 106 => ⟨S16384, .f32⟩
  | 107 => ⟨S16384, .f32⟩
  | 108 => ⟨S16384, .f32⟩
  | 109 => ⟨S16384, .f32⟩
  | 110 => ⟨S16384, .f32⟩
  | 111 => ⟨S16384, .f32⟩
  | 112 => ⟨S_, .f32⟩
  | 113 => ⟨S16384x4096, .f32⟩
  | 114 => ⟨S16384x4096, .f32⟩
  | 115 => ⟨S_, .f32⟩
  | 116 => ⟨S16384x4096, .f32⟩
  | 117 => ⟨S16384x4096, .f32⟩
  | 118 => ⟨S16384x4096, .f32⟩
  | 119 => ⟨S16384x4096, .f32⟩
  | 120 => ⟨S16384x4096, .f32⟩
  | 121 => ⟨S16384x4096, .f32⟩
  | 122 => ⟨S16384x4096, .f32⟩
  | 123 => ⟨S16384x4096, .f32⟩
  | 124 => ⟨S_, .f32⟩
  | 125 => ⟨S16384, .f32⟩
  | 126 => ⟨S16384, .f32⟩
  | 127 => ⟨S_, .f32⟩
  | _ => ⟨S16384x256, .f32⟩

abbrev hbmTy0_1 (i : Nat) : BufTy := match i % 128 with
  | 0 => ⟨S_, .f32⟩
  | 1 => ⟨S_, .f32⟩
  | 2 => ⟨S_, .f32⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_7 : Ref sig .tc := ⟨.hbm, 52, rfl⟩
abbrev main_v38 : Ref sig .tc := ⟨.hbm, 53, rfl⟩
abbrev main_v39 : Ref sig .tc := ⟨.hbm, 54, rfl⟩
abbrev main_c_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_9 : Ref sig .tc := ⟨.hbm, 62, rfl⟩
abbrev main_v46 : Ref sig .tc := ⟨.hbm, 63, rfl⟩
abbrev main_v47 : Ref sig .tc := ⟨.hbm, 64, rfl⟩
abbrev main_c_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_13 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_14 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_15 : Ref sig .tc := ⟨.hbm, 100, rfl⟩
abbrev main_v78 : Ref sig .tc := ⟨.hbm, 101, rfl⟩
abbrev main_v79 : Ref sig .tc := ⟨.hbm, 102, rfl⟩
abbrev main_cst_16 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_17 : Ref sig .tc := ⟨.hbm, 112, rfl⟩
abbrev main_v88 : Ref sig .tc := ⟨.hbm, 113, rfl⟩
abbrev main_v89 : Ref sig .tc := ⟨.hbm, 114, rfl⟩
abbrev main_cst_18 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_19 : Ref sig .tc := ⟨.hbm, 124, rfl⟩
abbrev main_v98 : Ref sig .tc := ⟨.hbm, 125, rfl⟩
abbrev main_v99 : Ref sig .tc := ⟨.hbm, 126, rfl⟩
abbrev main_cst_20 : Ref sig .tc := ⟨.hbm, 127, rfl⟩
abbrev main_v100 : Ref sig .tc := ⟨.hbm, 128, rfl⟩
abbrev main_cst_21 : Ref sig .tc := ⟨.hbm, 129, rfl⟩
abbrev main_v101 : Ref sig .tc := ⟨.hbm, 130, rfl⟩

abbrev nD : Nat := 1
abbrev τ : Topo := Topo.v7x

variable {F : FTy → Type} [FloatOps F]

class Facts₀ : Prop where
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  reducesTo_S16384x256_S16384_d1 : S16384x256.ReducesTo [1] S16384
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  reducesTo_S16384x4096_S16384_d1 : S16384x4096.ReducesTo [1] S16384
  reducesTo_S16384_S_d0 : S16384.ReducesTo [0] S_
  gather_S50000x256_S16384x1_S16384x256_1_0_n_n_0_1_1256_wf : GatherDims.WF S50000x256 S16384x1 S16384x256 [1] [0] [] [0] [] 1 ![1, 256]
  gather_S50000_S16384x1_S16384_n_0_n_n_0_1_1_wf : GatherDims.WF S50000 S16384x1 S16384 [] [0] [] [0] [] 1 ![1]
  gather_S50000x256_S4096x1_S4096x256_1_0_n_n_0_1_1256_wf : GatherDims.WF S50000x256 S4096x1 S4096x256 [1] [0] [] [0] [] 1 ![1, 256]
  dot_S16384x256_S4096x256_S16384x4096_1_1_0_0_n_n_wf : DotDims.WF S16384x256 S4096x256 S16384x4096 [1] [1] [0] [0] [] []
  gather_S50000_S4096x1_S4096_n_0_n_n_0_1_1_wf : GatherDims.WF S50000 S4096x1 S4096 [] [0] [] [0] [] 1 ![1]

variable [Facts₀]

def gather_S50000x256_S16384x1_S16384x256_1_0_n_n_0_1_1256 : GatherDims S50000x256 S16384x1 S16384x256 where
  offsetDims := [1]
  collapsedSliceDims := [0]
  operandBatchingDims := []
  startIndicesBatchingDims := []
  startIndexMap := [0]
  indexVectorDim := 1
  sliceSizes := ![1, 256]
  wf := gather_S50000x256_S16384x1_S16384x256_1_0_n_n_0_1_1256_wf
def gather_S50000_S16384x1_S16384_n_0_n_n_0_1_1 : GatherDims S50000 S16384x1 S16384 where
  offsetDims := []
  collapsedSliceDims := [0]
  operandBatchingDims := []
  startIndicesBatchingDims := []
  startIndexMap := [0]
  indexVectorDim := 1
  sliceSizes := ![1]
  wf := gather_S50000_S16384x1_S16384_n_0_n_n_0_1_1_wf
def gather_S50000x256_S4096x1_S4096x256_1_0_n_n_0_1_1256 : GatherDims S50000x256 S4096x1 S4096x256 where
  offsetDims := [1]
  collapsedSliceDims := [0]
  operandBatchingDims := []
  startIndicesBatchingDims := []
  startIndexMap := [0]
  indexVectorDim := 1
  sliceSizes := ![1, 256]
  wf := gather_S50000x256_S4096x1_S4096x256_1_0_n_n_0_1_1256_wf
def dot_S16384x256_S4096x256_S16384x4096_1_1_0_0_n_n : DotDims S16384x256 S4096x256 S16384x4096 where
  lhsContracting := [1]
  rhsContracting := [1]
  lhsNonContracting := [0]
  rhsNonContracting := [0]
  lhsBatch := []
  rhsBatch := []
  wf := dot_S16384x256_S4096x256_S16384x4096_1_1_0_0_n_n_wf
def gather_S50000_S4096x1_S4096_n_0_n_n_0_1_1 : GatherDims S50000 S4096x1 S4096 where
  offsetDims := []
  collapsedSliceDims := [0]
  operandBatchingDims := []
  startIndicesBatchingDims := []
  startIndexMap := [0]
  indexVectorDim := 1
  sliceSizes := ![1]
  wf := gather_S50000_S4096x1_S4096_n_0_n_n_0_1_1_wf

class Facts : Prop extends Facts₀ where

variable [Facts]
-- ==== Proof.NceSpec.lean ====
/-
  The noise-contrastive estimation loss of one example, over the extended reals, written two ways.

  For an example with embedding row `e`, true-class weight row `wt`, true-class bias `bt` and log expected count `lt`, and
  for 4096 sampled classes with weight rows `ws s`, biases `bs s` and log expected counts `ls s`, the loss is the sigmoid
  cross-entropy of the true logit against label one plus the sum over the samples of the sigmoid cross-entropy of each sampled
  logit against label zero.  The stable form of the cross-entropy of a logit `x` against a label `z` is
  `max x 0 - x * z + log (1 + exp (-|x|))`.

  The first way (`perExampleR`) takes each logit as `(dot + bias) - logq`, keeps the products `x * 1` and `x * 0`, and adds the
  true term to one sum over all 4096 samples.  The second way (`perExampleK`) takes each logit as `dot + (bias - logq)`, drops the
  products, writes `-|x|` as `0 - |x|`, and adds the samples in four consecutive chunks of 1024, one after the other, onto a zero,
  and the true term last.  The two are equal: on the extended reals addition is associative and commutative, subtraction is
  addition of the negative, `x * 1 = x`, `x * 0 = 0` and `0 - x = -x` hold for every `x`, infinite ones included, so no finiteness is
  needed.
-/
import Idealize.ShloMosaic.PureOps.Ideal
import Idealize.ShloMosaic.PureOps.Ideal.Laws
import Mathlib.Algebra.BigOperators.Fin
import Mathlib.Logic.Equiv.Fin.Basic

noncomputable section

namespace Cert.Nce

open Idealize.ShloMosaic

/-- A class index, read signed, lies in the table's range `[0, 50000)`: the two word comparisons both hold. -/
def InRange (w : BitVec 32) : Prop := IntOp.cmpi .sge w 0#32 = 1#1 ∧ IntOp.cmpi .slt w 50000#32 = 1#1

/-- `log (1 + exp (-|x|))`, the absolute value as `max x (-x)`. -/
def softTail (x : EReal) : EReal := Ideal.log1p (Ideal.exp (-(max x (-x))))

/-- The same with `-|x|` written `0 - |x|`. -/
def softTailK (x : EReal) : EReal := Ideal.log1p (Ideal.exp (0 - max x (-x)))

theorem softTailK_eq (x : EReal) : softTailK x = softTail x := by
  unfold softTailK softTail
  rw [zero_sub]

/-- Cross-entropy of the logit `x` against the label `z`. -/
def xent (z x : EReal) : EReal := (max x 0 - x * z) + softTail x

/-- Against label one with the product dropped. -/
def xentOneK (x : EReal) : EReal := (max x 0 - x) + softTailK x

/-- Against label zero with the product dropped. -/
def xentZeroK (x : EReal) : EReal := max x 0 + softTailK x

theorem xentOneK_eq (x : EReal) : xentOneK x = xent 1 x := by
  unfold xentOneK xent
  rw [softTailK_eq, mul_one]

theorem xentZeroK_eq (x : EReal) : xentZeroK x = xent 0 x := by
  unfold xentZeroK xent
  rw [softTailK_eq, mul_zero, sub_zero]

/-- A logit the first way: `(dot + bias) - logq`. -/
def logitR (dot bias logq : EReal) : EReal := (dot + bias) - logq

/-- A logit the second way: `dot + (bias - logq)`. -/
def logitK (dot bias logq : EReal) : EReal := dot + (bias - logq)

theorem logitK_eq (dot bias logq : EReal) : logitK dot bias logq = logitR dot bias logq := by
  unfold logitK logitR
  rw [sub_eq_add_neg, sub_eq_add_neg, add_assoc]

/-- Sample `1024 * c + l`: sample `l` of chunk `c`. -/
def chunkIx (c : Fin 4) (l : Fin 1024) : Fin 4096 := ⟨1024 * c.val + l.val, by omega⟩

/-- A sum over the 4096 samples is the sum over the four chunks of the sums over each chunk's 1024 samples. -/
theorem sum_chunks (f : Fin 4096 → EReal) : ∑ s : Fin 4096, f s = ∑ c : Fin 4, ∑ l : Fin 1024, f (chunkIx c l) := by
  have h := (Equiv.sum_comp (finProdFinEquiv : Fin 4 × Fin 1024 ≃ Fin (4 * 1024)) (fun s => f s)).symm
  rw [show (∑ s : Fin 4096, f s) = ∑ s : Fin (4 * 1024), f s from rfl, h, Fintype.sum_prod_type]
  refine Finset.sum_congr rfl fun c _ => Finset.sum_congr rfl fun l _ => ?_
  congr 1
  apply Fin.ext
  show l.val + 1024 * c.val = 1024 * c.val + l.val
  omega

section perExample

variable (e wt : Fin 256 → EReal) (bt lt : EReal) (ws : Fin 4096 → Fin 256 → EReal) (bs ls : Fin 4096 → EReal)

/-- The loss of one example, the first way. -/
def perExampleR : EReal :=
  xent 1 (logitR (0 + ∑ d : Fin 256, e d * wt d) bt lt)
    + (0 + ∑ s : Fin 4096, xent 0 (logitR (∑ d : Fin 256, e d * ws s d) (bs s) (ls s)))

/-- The samples of chunk `c` summed, the second way. -/
def chunkK (c : Fin 4) : EReal :=
  ∑ l : Fin 1024, xentZeroK (logitK (∑ d : Fin 256, e d * ws (chunkIx c l) d) (bs (chunkIx c l)) (ls (chunkIx c l)))

/-- The loss of one example, the second way. -/
def perExampleK : EReal :=
  ((((0 + chunkK e ws bs ls 0) + chunkK e ws bs ls 1) + chunkK e ws bs ls 2) + chunkK e ws bs ls 3)
    + xentOneK (logitK (∑ d : Fin 256, e d * wt d) bt lt)

theorem perExampleK_eq : perExampleK e wt bt lt ws bs ls = perExampleR e wt bt lt ws bs ls := by
  unfold perExampleK perExampleR chunkK
  rw [sum_chunks, Fin.sum_univ_four]
  simp only [xentZeroK_eq, xentOneK_eq, logitK_eq, zero_add]
  rw [add_comm]

end perExample

end Cert.Nce

end
-- ==== Proof.KerNames.lean ====
/-
  Names for the arrays the kernel's one launch stages, as the launch finds them, and for the index and table arguments as
  launched.  Window 0 stages the embedding [16384, 256]; window 1 the true-class weight rows [16384, 256]; window 2 the
  column [16384, 1] of true-class bias minus log expected count; window 3 the transposed sampled weight rows [256, 4096];
  window 4 the row [1, 4096] of sampled bias minus log expected count.  Each name fixes the array's literal shape.
-/
import proofs.«413751_j66606352827120_3_alg».proof.Proof.Gen.KernelIdeal.Frame
import proofs.«413751_j66606352827120_3_alg».proof.Proof.NceSpec
import Idealize.ShloMosaic.Lib.ValueIdx

noncomputable section

namespace Cert.KernelIdeal.Nce

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

abbrev embArr (c : Dev nD) : FVec F S16384x256 .f32 := V m c main_arg0
abbrev wtrueArr (c : Dev nD) : FVec F S16384x256 .bf16 := V m c main_v40
abbrev tbArr (c : Dev nD) : FVec F S16384x1 .f32 := V m c main_v43
abbrev wsampTArr (c : Dev nD) : FVec F S256x4096 .bf16 := V m c main_v49
abbrev adjArr (c : Dev nD) : FVec F S1x4096 .f32 := V m c main_v47

abbrev embArg (c : Dev nD) : FVec F S16384x256 .f32 := m ((c : Thread nD τ).loc main_arg0)
abbrev labelsArg (c : Dev nD) : IVec S16384x1 32 := m ((c : Thread nD τ).loc main_arg1)
abbrev sampledArg (c : Dev nD) : IVec S4096 32 := m ((c : Thread nD τ).loc main_arg2)
abbrev weightArg (c : Dev nD) : FVec F S50000x256 .f32 := m ((c : Thread nD τ).loc main_arg3)
abbrev biasArg (c : Dev nD) : FVec F S50000 .f32 := m ((c : Thread nD τ).loc main_arg4)

theorem embArr_eq (c : Dev nD) : embArr m c = embArg m c := V_main_arg0 m c

/-- The windows' arrays are these, in the launch's operand order. -/
theorem arrRef_0 : Pipeline.arrRef spec0 0 = main_arg0 := rfl
theorem arrRef_1 : Pipeline.arrRef spec0 1 = main_v40 := rfl
theorem arrRef_2 : Pipeline.arrRef spec0 2 = main_v43 := rfl
theorem arrRef_3 : Pipeline.arrRef spec0 3 = main_v49 := rfl
theorem arrRef_4 : Pipeline.arrRef spec0 4 = main_v47 := rfl
theorem arrRef_5 : Pipeline.arrRef spec0 5 = main_v50 := rfl

end Cert.KernelIdeal.Nce

end
-- ==== Proof.KerBody.lean ====
/-
  What the kernel body leaves in its output block, as a pure function of the five input blocks.

  The body loads the embedding block, the true-class weight block and the bias-minus-logq column whole, runs a loop of four
  trips carrying a [1024, 1] column from zero — trip k loads columns [1024 k, 1024 k + 1024) of the resident transposed
  sampled-weight block and of the resident sampled bias-minus-logq row and adds that chunk's row sums to the carried column —
  and stores, over the whole output block, the carried column plus the true-class term.  So the block ends at the store's
  payload of the three whole loads and the four-fold composition of the trip's payload over the four chunk loads.
-/
import proofs.«413751_j66606352827120_3_alg».proof.Proof.Gen.KernelIdeal.Frame
import Idealize.ShloMosaic.Lib.ValueIdx
import Idealize.ShloMosaic.Lib.Pipeline.Value

set_option maxRecDepth 16384

noncomputable section

namespace Cert.KernelIdeal.NceBody

open Cert.KernelIdeal Cert.KernelIdeal.Gen Idealize.ShloMosaic Idealize.ShloMosaic.TcCoe Idealize.ShloMosaic.Tactic Idealize.ShloMosaic.ValueIdx
open Idealize.SL Idealize.SL.Sem

variable {F : FTy → Type} [FloatOps F]

theorem hz : (![0, 0] : Fin 2 → Nat) = fun _ => 0 := funext fun a => by fin_cases a <;> rfl

/-- Columns [1024 k, 1024 k + 1024) of the resident [256, 4096] block. -/
def chunkW (x3 : Vec F S256x4096 .bf16) (k : Fin 4) : Vec F S256x1024 .bf16 :=
  fun j => x3 (ix2 (⟨(j 0).val, idx2_lt0 j⟩ : Fin 256) (⟨1024 * k.val + (j 1).val, by have := idx2_lt1 j; omega⟩ : Fin 4096))

/-- Columns [1024 k, 1024 k + 1024) of the resident [1, 4096] row. -/
def chunkA (x4 : Vec F S1x4096 .f32) (k : Fin 4) : Vec F S1x1024 .f32 :=
  fun j => x4 (ix2 (⟨(j 0).val, idx2_lt0 j⟩ : Fin 1) (⟨1024 * k.val + (j 1).val, by have := idx2_lt1 j; omega⟩ : Fin 4096))

/-- The carried column after the four trips. -/
def loopVal (x0 : Vec F S1024x256 .f32) (x3 : Vec F S256x4096 .bf16) (x4 : Vec F S1x4096 .f32) : FVec F S1024x1 .f32 :=
  k0_pay3 x0 (k0_pay3 x0 (k0_pay3 x0 (k0_pay3 x0 (k0_pay2 (F := F)) (chunkW x3 0) (chunkA x4 0)) (chunkW x3 1) (chunkA x4 1))
    (chunkW x3 2) (chunkA x4 2)) (chunkW x3 3) (chunkA x4 3)

/-- The loop runs four trips. -/
theorem trips_eq : k0_t1_loop.trips = 4 := by decide

/-- Trip `n` of the four. -/
def tk (n : ℕ) (h : n < 4) : Fin k0_t1_loop.trips := ⟨n, by rw [trips_eq]; exact h⟩

/-- ONE TRIP: from the carried column `acc` it yields the trip's payload of `acc` and the trip's two loads, the columns at
    the trip's offset of the resident block and of the resident row. -/
theorem trip_eq (𝒱 : Variants) (bd : Option 𝒱.V) (c : Dev nD) (i : grid0.Coords) (arg1 : Memref sig .tc .vmem S1024x256 .f32) (harg1 : arg1.IsWhole)
    (arg2 : Memref sig .tc .vmem S1024x256 .bf16) (harg2 : arg2.IsWhole) (arg3 : Memref sig .tc .vmem S1024x1 .f32) (harg3 : arg3.IsWhole)
    (arg4 : Memref sig .tc .vmem S256x4096 .bf16) (harg4 : arg4.IsWhole) (arg5 : Memref sig .tc .vmem S1x4096 .f32) (harg5 : arg5.IsWhole)
    (arg6 : Memref sig .tc .vmem S1024x1 .f32) (harg6 : arg6.IsWhole)
    (v0 : Vec F S1024x256 .f32) (X4 : BufTy.Contents (Elt F) arg4.view.ty) (X5 : BufTy.Contents (Elt F) arg5.view.ty)
    (k : Fin k0_t1_loop.trips) (acc : FVec F S1024x1 .f32) :
    tripR_k0_t1 (F := F) 𝒱 c bd i arg1 harg1 arg2 harg2 arg3 harg3 arg4 harg4 arg5 harg5 arg6 harg6 v0 X4 X5 k acc
      = k0_pay3 v0 acc
          (View.readAt (Elt F) arg4.view (Rect.unit (s := S256x4096) (k0_off1 k) S256x1024.size (k0_off1_inb k)).toLoadRect X4)
          (View.readAt (Elt F) arg5.view (Rect.unit (s := S1x4096) (k0_off2 k) S1x1024.size (k0_off2_inb k)).toLoadRect X5) := by
  unfold tripR_k0_t1 trip_k0_t1
  rfl

/-- The carried column before trip four is the four trips composed on the initial column. -/
theorem st_four (𝒱 : Variants) (bd : Option 𝒱.V) (c : Dev nD) (i : grid0.Coords) (arg1 : Memref sig .tc .vmem S1024x256 .f32) (harg1 : arg1.IsWhole)
    (arg2 : Memref sig .tc .vmem S1024x256 .bf16) (harg2 : arg2.IsWhole) (arg3 : Memref sig .tc .vmem S1024x1 .f32) (harg3 : arg3.IsWhole)
    (arg4 : Memref sig .tc .vmem S256x4096 .bf16) (harg4 : arg4.IsWhole) (arg5 : Memref sig .tc .vmem S1x4096 .f32) (harg5 : arg5.IsWhole)
    (arg6 : Memref sig .tc .vmem S1024x1 .f32) (harg6 : arg6.IsWhole)
    (v0 : Vec F S1024x256 .f32) (X4 : BufTy.Contents (Elt F) arg4.view.ty) (X5 : BufTy.Contents (Elt F) arg5.view.ty)
    (init : FVec F S1024x1 .f32) :
    st_k0_t1 (F := F) 𝒱 c bd i arg1 harg1 arg2 harg2 arg3 harg3 arg4 harg4 arg5 harg5 arg6 harg6 v0 X4 X5 init 4
      = tripR_k0_t1 (F := F) 𝒱 c bd i arg1 harg1 arg2 harg2 arg3 harg3 arg4 harg4 arg5 harg5 arg6 harg6 v0 X4 X5 (tk 3 (by decide))
          (tripR_k0_t1 (F := F) 𝒱 c bd i arg1 harg1 arg2 harg2 arg3 harg3 arg4 harg4 arg5 harg5 arg6 harg6 v0 X4 X5 (tk 2 (by decide))
            (tripR_k0_t1 (F := F) 𝒱 c bd i arg1 harg1 arg2 harg2 arg3 harg3 arg4 harg4 arg5 harg5 arg6 harg6 v0 X4 X5 (tk 1 (by decide))
              (tripR_k0_t1 (F := F) 𝒱 c bd i arg1 harg1 arg2 harg2 arg3 harg3 arg4 harg4 arg5 harg5 arg6 harg6 v0 X4 X5 (tk 0 (by decide)) init))) := by
  have s := fun k => st_k0_t1_succ (F := F) 𝒱 c bd i arg1 harg1 arg2 harg2 arg3 harg3 arg4 harg4 arg5 harg5 arg6 harg6 v0 X4 X5 init k
  have e3 := s (tk 3 (by decide))
  have e2 := s (tk 2 (by decide))
  have e1 := s (tk 1 (by decide))
  have e0 := s (tk 0 (by decide))
  change st_k0_t1 (F := F) 𝒱 c bd i arg1 harg1 arg2 harg2 arg3 harg3 arg4 harg4 arg5 harg5 arg6 harg6 v0 X4 X5 init 4 = _ at e3
  change st_k0_t1 (F := F) 𝒱 c bd i arg1 harg1 arg2 harg2 arg3 harg3 arg4 harg4 arg5 harg5 arg6 harg6 v0 X4 X5 init 3 = tripR_k0_t1 (F := F) 𝒱 c bd i arg1 harg1 arg2 harg2 arg3 harg3 arg4 harg4 arg5 harg5 arg6 harg6 v0 X4 X5 (tk 2 (by decide)) (st_k0_t1 (F := F) 𝒱 c bd i arg1 harg1 arg2 harg2 arg3 harg3 arg4 harg4 arg5 harg5 arg6 harg6 v0 X4 X5 init 2) at e2
  change st_k0_t1 (F := F) 𝒱 c bd i arg1 harg1 arg2 harg2 arg3 harg3 arg4 harg4 arg5 harg5 arg6 harg6 v0 X4 X5 init 2 = tripR_k0_t1 (F := F) 𝒱 c bd i arg1 harg1 arg2 harg2 arg3 harg3 arg4 harg4 arg5 harg5 arg6 harg6 v0 X4 X5 (tk 1 (by decide)) (st_k0_t1 (F := F) 𝒱 c bd i arg1 harg1 arg2 harg2 arg3 harg3 arg4 harg4 arg5 harg5 arg6 harg6 v0 X4 X5 init 1) at e1
  change st_k0_t1 (F := F) 𝒱 c bd i arg1 harg1 arg2 harg2 arg3 harg3 arg4 harg4 arg5 harg5 arg6 harg6 v0 X4 X5 init 1 = tripR_k0_t1 (F := F) 𝒱 c bd i arg1 harg1 arg2 harg2 arg3 harg3 arg4 harg4 arg5 harg5 arg6 harg6 v0 X4 X5 (tk 0 (by decide)) (st_k0_t1 (F := F) 𝒱 c bd i arg1 harg1 arg2 harg2 arg3 harg3 arg4 harg4 arg5 harg5 arg6 harg6 v0 X4 X5 init 0) at e0
  rw [e3]
  change tripR_k0_t1 (F := F) 𝒱 c bd i arg1 harg1 arg2 harg2 arg3 harg3 arg4 harg4 arg5 harg5 arg6 harg6 v0 X4 X5 (tk 3 (by decide)) (st_k0_t1 (F := F) 𝒱 c bd i arg1 harg1 arg2 harg2 arg3 harg3 arg4 harg4 arg5 harg5 arg6 harg6 v0 X4 X5 init 3) = _
  rw [e2, e1, e0, st_k0_t1_zero]

/-- A load of columns [1024 k, 1024 k + 1024) of the resident block is that chunk. -/
theorem ld_chunkW (x3 : Vec F S256x4096 .bf16) (k : Fin k0_t1_loop.trips) (k' : Fin 4) (hk : k.val = k'.val) :
    View.ld x3 (Rect.unit (s := S256x4096) (k0_off1 k) S256x1024.size (k0_off1_inb k)) = chunkW x3 k' := by
  funext j
  show x3 ((Rect.unit (s := S256x4096) (k0_off1 k) S256x1024.size (k0_off1_inb k)).idx j) = x3 _
  congr 1
  funext a
  apply Fin.ext
  have e0 : k0_off1 k 0 = 0 := congrFun (k0_off1_eq k) 0
  have e1 : k0_off1 k 1 = 1024 * k.val := congrFun (k0_off1_eq k) 1
  match a with
  | ⟨0, _⟩ =>
    show k0_off1 k 0 + 1 * (j 0).val = (j 0).val
    omega
  | ⟨1, _⟩ =>
    show k0_off1 k 1 + 1 * (j 1).val = 1024 * k'.val + (j 1).val
    omega

/-- A load of columns [1024 k, 1024 k + 1024) of the resident row is that chunk. -/
theorem ld_chunkA (x4 : Vec F S1x4096 .f32) (k : Fin k0_t1_loop.trips) (k' : Fin 4) (hk : k.val = k'.val) :
    View.ld x4 (Rect.unit (s := S1x4096) (k0_off2 k) S1x1024.size (k0_off2_inb k)) = chunkA x4 k' := by
  funext j
  show x4 ((Rect.unit (s := S1x4096) (k0_off2 k) S1x1024.size (k0_off2_inb k)).idx j) = x4 _
  congr 1
  funext a
  apply Fin.ext
  have e0 : k0_off2 k 0 = 0 := congrFun (k0_off2_eq k) 0
  have e1 : k0_off2 k 1 = 1024 * k.val := congrFun (k0_off2_eq k) 1
  match a with
  | ⟨0, _⟩ =>
    show k0_off2 k 0 + 1 * (j 0).val = (j 0).val
    omega
  | ⟨1, _⟩ =>
    show k0_off2 k 1 + 1 * (j 1).val = 1024 * k'.val + (j 1).val
    omega

/-- The output block after the body, whatever staging memrefs it ran on. -/
theorem out_eq (c : Dev nD) (i : grid0.Coords) (arg1 : Memref sig .tc .vmem S1024x256 .f32) (harg1 : arg1.IsWhole)
    (arg2 : Memref sig .tc .vmem S1024x256 .bf16) (harg2 : arg2.IsWhole) (arg3 : Memref sig .tc .vmem S1024x1 .f32) (harg3 : arg3.IsWhole)
    (arg4 : Memref sig .tc .vmem S256x4096 .bf16) (harg4 : arg4.IsWhole) (arg5 : Memref sig .tc .vmem S1x4096 .f32) (harg5 : arg5.IsWhole)
    (arg6 : Memref sig .tc .vmem S1024x1 .f32) (harg6 : arg6.IsWhole)
    (x0 : Vec F S1024x256 .f32) (x1 : Vec F S1024x256 .bf16) (x2 : Vec F S1024x1 .f32) (x3 : Vec F S256x4096 .bf16) (x4 : Vec F S1x4096 .f32) :
    out0_A_5 c i arg1 harg1 arg2 harg2 arg3 harg3 arg4 harg4 arg5 harg5 arg6 harg6 x0 x1 x2 x3 x4
      = k0_pay4 x0 x1 x2 (loopVal x0 x3 x4) := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  sl_unfold_words
  rw [View.canon_unit_zero hz]
  simp only [View.readAt_eq_ld, harg1.read_unread, harg2.read_unread, harg3.read_unread, View.ld_unit_zero (S := S1024x256) hz,
    View.ld_unit_zero (S := S1024x1) hz]
  refine congrArg (k0_pay4 x0 x1 x2) ?_
  have h4 : Scf.trips (0#32) (Scalar.addi 0#32 4#32) 1#32 = 4 := by decide
  rw [h4, st_four]
  simp only [trip_eq, View.readAt_eq_ld, harg4.read_unread, harg5.read_unread]
  rw [ld_chunkW x3 (tk 0 (by decide)) 0 rfl, ld_chunkW x3 (tk 1 (by decide)) 1 rfl, ld_chunkW x3 (tk 2 (by decide)) 2 rfl,
    ld_chunkW x3 (tk 3 (by decide)) 3 rfl, ld_chunkA x4 (tk 0 (by decide)) 0 rfl, ld_chunkA x4 (tk 1 (by decide)) 1 rfl,
    ld_chunkA x4 (tk 2 (by decide)) 2 rfl, ld_chunkA x4 (tk 3 (by decide)) 3 rfl]
  rfl

end Cert.KernelIdeal.NceBody

end
-- ==== Proof.KerPay.lean ====
/-
  The kernel body's arithmetic read at a row, over the extended reals.

  The body's three pure terms are: the zero column the chunk loop starts from; one chunk's update of the carried column — the
  carried entry plus the sum over the chunk's 1024 lanes of the label-zero cross-entropy of the row's product with the chunk's
  weight column plus the chunk's bias-minus-logq entry; and the stored column — the carried entry plus the label-one
  cross-entropy of the row's product with its true-class weight row plus its bias-minus-logq entry.  A change of float format
  is the identity on extended reals, a matrix product into a zero accumulator is the sum of products over the contracted axis,
  and a lane reduction is the sum over the lanes.
-/
import proofs.«413751_j66606352827120_3_alg».proof.Proof.Gen.KernelIdeal.Skeleton
import proofs.«413751_j66606352827120_3_alg».proof.Proof.NceSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.NcePay

open Cert.KernelIdeal Cert.KernelIdeal.Gen Idealize.ShloMosaic Idealize.ShloMosaic.ValueIdx Cert.Nce

/-- The zero word of the 32-bit format is the extended real zero. -/
private theorem zero_word : (Scalar.ofBits .f32 0x00000000#32 : Ideal .f32) = 0 := Ideal.ofBits_zero_f32

/-- A vector of 1024 entries viewed as a column of 1024 rows reads, at row `r`, the vector's entry `r`. -/
private theorem column_apply (v : FVec Ideal S1024 .f32) (h : S1024.ShapeCasts S1024x1) (r : Fin 1024) :
    shapeCast S1024x1 v h (ix2 r (0 : Fin 1)) = v (ix1 r) :=
  shapeCast_apply v h _ _ (by
    rw [Shape.rowMajor_val_two, Shape.rowMajor_val_one]
    show r.val = r.val * 1 + 0
    omega)

/-- The sum over the 1024 lanes of a 1024 × 1024 matrix, at row `r`. -/
private theorem laneSum1024 (v : FVec Ideal S1024x1024 .f32) (h : S1024x1024.Reduces [1] S1024) (hφ : FKind.Formats .f32)
    (hacc : (0x00000000#32 : BitVec 32) = 0x00000000#32) (r : Fin 1024) :
    multiReduction (F := Ideal) .add [1] S1024 v 0x00000000#32 h hφ hacc (ix1 r) = ∑ l : Fin 1024, v (ix2 r l) := by
  refine (Ideal.multiReduction_add_single v 0x00000000#32 h hφ hacc (ix1 r)).trans ?_
  refine Finset.sum_congr rfl fun l _ => congrArg v ?_
  funext c
  refine Fin.ext ?_
  match c with
  | ⟨0, _⟩ => rfl
  | ⟨1, _⟩ => rfl

/-- The sum over the 256 lanes of a 1024 × 256 matrix, at row `r`. -/
private theorem laneSum256 (v : FVec Ideal S1024x256 .f32) (h : S1024x256.Reduces [1] S1024) (hφ : FKind.Formats .f32)
    (hacc : (0x00000000#32 : BitVec 32) = 0x00000000#32) (r : Fin 1024) :
    multiReduction (F := Ideal) .add [1] S1024 v 0x00000000#32 h hφ hacc (ix1 r) = ∑ d : Fin 256, v (ix2 r d) := by
  refine (Ideal.multiReduction_add_single v 0x00000000#32 h hφ hacc (ix1 r)).trans ?_
  refine Finset.sum_congr rfl fun l _ => congrArg v ?_
  funext c
  refine Fin.ext ?_
  match c with
  | ⟨0, _⟩ => rfl
  | ⟨1, _⟩ => rfl

/-- The left factor's row coordinate is the product entry's row. -/
private theorem lhs_axis0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl

/-- The left factor's column coordinate is the contracted coordinate. -/
private theorem lhs_axis1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q

/-- The right factor's row coordinate is the contracted coordinate. -/
private theorem rhs_axis0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q

/-- The right factor's column coordinate is the product entry's column. -/
private theorem rhs_axis1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- A matrix product into a zero accumulator, at `(r, l)`: the sum over the 256 contracted coordinates of the products. -/
private theorem product_apply (x : FVec Ideal S1024x256 .bf16) (w : FVec Ideal S256x1024 .bf16) (r l : Fin 1024) :
    matmul dot_S1024x256_S256x1024_S1024x1024_1_0_0_1_n_n none x w (constant (F := Ideal) S1024x1024 .f32 0x00000000#32) (ix2 r l)
      = ∑ d : Fin 256, x (ix2 r d) * w (ix2 d l) := by
  refine (Ideal.matmul_constant_zero_apply dot_S1024x256_S256x1024_S1024x1024_1_0_0_1_n_n none x w (ix2 r l)).trans ?_
  rw [← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 r l) ((contrEquiv1 dot_S1024x256_S256x1024_S1024x1024_1_0_0_1_n_n 256 rfl rfl).symm k) = ix2 r k := funext fun a => Fin.ext (by
    match a with
    | ⟨0, _⟩ => exact lhs_axis0 _ _
    | ⟨1, _⟩ => exact (lhs_axis1 _ _).trans hk)
  have er : dot_S1024x256_S256x1024_S1024x1024_1_0_0_1_n_n.rhsIdx (ix2 r l) ((contrEquiv1 dot_S1024x256_S256x1024_S1024x1024_1_0_0_1_n_n 256 rfl rfl).symm k) = ix2 k l := funext fun a => Fin.ext (by
    match a with
    | ⟨0, _⟩ => exact (rhs_axis0 _ _).trans hk
    | ⟨1, _⟩ => exact rhs_axis1 _ _)
  rw [el, er]

/-- The label-zero cross-entropy, as the body writes it on a whole vector, read at one entry. -/
private theorem zeroTerm_apply {s : Shape} (u : FVec Ideal s .f32) (i : s.Idx) :
    addf (maximumf u (broadcast s (Scalar.ofBits .f32 0x00000000#32)))
      (log1p (exp (subf (broadcast s (Scalar.ofBits .f32 0x00000000#32)) (absf u)))) i = xentZeroK (u i) := by
  show max (u i) (Ideal.ofBits .f32 0x00000000#32)
    + Ideal.log1p (Ideal.exp (Ideal.ofBits .f32 0x00000000#32 - max (u i) (-(u i)))) = _
  rw [Ideal.ofBits_zero_f32]
  rfl

/-- The label-one cross-entropy, as the body writes it on a whole vector, read at one entry. -/
private theorem oneTerm_apply {s : Shape} (u : FVec Ideal s .f32) (i : s.Idx) :
    addf (subf (maximumf u (broadcast s (Scalar.ofBits .f32 0x00000000#32))) u)
      (log1p (exp (subf (broadcast s (Scalar.ofBits .f32 0x00000000#32)) (absf u)))) i = xentOneK (u i) := by
  show (max (u i) (Ideal.ofBits .f32 0x00000000#32) - u i)
    + Ideal.log1p (Ideal.exp (Ideal.ofBits .f32 0x00000000#32 - max (u i) (-(u i)))) = _
  rw [Ideal.ofBits_zero_f32]
  rfl

/-- The loop's initial column is zero. -/
theorem pay2_apply (r : Fin 1024) : (k0_pay2 (F := Ideal)) (ix2 r (0 : Fin 1)) = 0 := by
  unfold k0_pay2
  exact zero_word

/-- One chunk's update of the carried column, at row `r`. -/
theorem pay3_apply (x0 : FVec Ideal S1024x256 .f32) (acc : FVec Ideal S1024x1 .f32) (w : FVec Ideal S256x1024 .bf16)
    (a : FVec Ideal S1x1024 .f32) (r : Fin 1024) :
    k0_pay3 x0 acc w a (ix2 r (0 : Fin 1))
      = acc (ix2 r (0 : Fin 1))
        + ∑ l : Fin 1024, xentZeroK ((∑ d : Fin 256, x0 (ix2 r d) * w (ix2 d l)) + a (ix2 (0 : Fin 1) l)) := by
  unfold k0_pay3 k0_pay1
  dsimp only
  refine (addf_apply acc _ _).trans (congrArg (acc (ix2 r (0 : Fin 1)) + ·) ?_)
  refine (column_apply _ _ r).trans ?_
  refine (laneSum1024 _ _ _ _ r).trans ?_
  refine Finset.sum_congr rfl fun l _ => ?_
  refine (zeroTerm_apply _ (ix2 r l)).trans (congrArg xentZeroK ?_)
  refine (addf_apply _ _ _).trans (congrArg₂ (· + ·) ?_ ?_)
  · refine (product_apply _ _ r l).trans ?_
    refine Finset.sum_congr rfl fun d _ => ?_
    exact congrArg (x0 (ix2 r d) * ·) (congrFun (shapeCast_self w _) (ix2 d l))
  · refine (broadcastTo_1b_ab_apply _ _ r l).trans ?_
    exact congrFun (shapeCast_self a _) (ix2 (0 : Fin 1) l)

/-- The stored column, at row `r`. -/
theorem pay4_apply (x0 : FVec Ideal S1024x256 .f32) (x1 : FVec Ideal S1024x256 .bf16) (x2 : FVec Ideal S1024x1 .f32)
    (v22 : FVec Ideal S1024x1 .f32) (r : Fin 1024) :
    k0_pay4 x0 x1 x2 v22 (ix2 r (0 : Fin 1))
      = v22 (ix2 r (0 : Fin 1))
        + xentOneK ((∑ d : Fin 256, x0 (ix2 r d) * x1 (ix2 r d)) + x2 (ix2 r (0 : Fin 1))) := by
  unfold k0_pay4 k0_pay1
  dsimp only
  refine (addf_apply v22 _ _).trans (congrArg (v22 (ix2 r (0 : Fin 1)) + ·) ?_)
  refine (oneTerm_apply _ (ix2 r (0 : Fin 1))).trans (congrArg xentOneK ?_)
  refine (addf_apply _ _ _).trans (congrArg₂ (· + ·) ?_ ?_)
  · refine (column_apply _ _ r).trans ?_
    refine (laneSum256 _ _ _ _ r).trans ?_
    refine Finset.sum_congr rfl fun d _ => ?_
    exact congrArg (x0 (ix2 r d) * ·) (congrFun (shapeCast_self x1 _) (ix2 r d))
  · exact congrFun (shapeCast_self x2 _) (ix2 r (0 : Fin 1))

end Cert.KernelIdeal.NcePay

end
-- ==== Proof.KerHost.lean ====
/-
  The two arrays the kernel's launch stages from the labels, read at an index, when every label is in range.

  Before the launch the kernel gathers with a fill: it wraps a negative index by adding 50000, gathers with the index clamped
  into the table, and replaces the gathered entry by a fill value wherever the wrapped index is outside `[0, 49999]`.  With
  the index in `[0, 50000)` the wrap is the identity and the test holds, so the gathered entry stands, and it is the
  reference's gather of the same table at the same wrapped index.  The log expected counts are the same chain of operations
  on the same indices in both programs.  So: the true-class weight rows are the reference's gathered rows (the change of
  float format the identity); the true-class column is the reference's gathered bias minus its log expected count.
-/
import proofs.«413751_j66606352827120_3_alg».proof.Proof.KerNames
import proofs.«413751_j66606352827120_3_alg».proof.Proof.Gen.ReferenceIdeal.Read
import Idealize.ShloMosaic.Lib.ValueLayout
import Idealize.ShloMosaic.Lib.Pipeline.Value
import Idealize.ShloMosaic.Lib.StableHlo.Predicate
import Idealize.ShloMosaic.Lib.ReduceAll

set_option maxRecDepth 16384

noncomputable section

namespace Cert.KernelIdeal.NceHost

open Cert.KernelIdeal Cert.KernelIdeal.Gen Cert.KernelIdeal.Nce Idealize.ShloMosaic Idealize.ShloMosaic.TcCoe Idealize.SL.Sem Idealize.ShloMosaic.ValueIdx

/-! ## Words -/

section Words

open Idealize.ShloMosaic.StableHlo.Predicate (ofBool_eq_one_iff toInt_ofNat_small)

/-- A fold by `and` from one over one-bit words that are all one is one. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi (1#1 : BitVec 1) (f a) = 1#1 := by rw [h a (List.mem_cons_self ..)]; decide
    rw [List.foldl_cons, e]
    exact foldl_andi_one f l (fun n hn => h n (List.mem_cons_of_mem _ hn))

/-- A reduction by `and` from one is one at a result index all of whose operand entries are one. -/
private theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, h.drop i = j → x i = 1#1) : Host.reduce IntOp.andi x init h hu j = 1#1 := by
  rw [Host.reduce_eq_foldl, hi]
  exact foldl_andi_one x _ (fun i hi' => hx i (of_decide_eq_true (List.mem_filter.1 hi').2))

/-- A word that is at least zero, read signed, is not below zero. -/
private theorem slt_zero_of_sge (w : BitVec 32) (h : IntOp.cmpi .sge w 0#32 = 1#1) : IntOp.cmpi .slt w 0#32 = 0#1 := by
  have h' : (0#32 : BitVec 32).sle w = true := (ofBool_eq_one_iff _).1 h
  have h'' : (0#32 : BitVec 32).toInt ≤ w.toInt := of_decide_eq_true h'
  have e : w.slt 0#32 = false := decide_eq_false (Int.not_lt.mpr h'')
  show BitVec.ofBool (w.slt 0#32) = 0#1
  rw [e]; rfl

/-- The wrap of an index that is at least zero is the index. -/
private theorem wrap_id (w : BitVec 32) (h : IntOp.cmpi .sge w 0#32 = 1#1) :
    Scalar.select (IntOp.cmpi .slt w 0#32) (IntOp.addi w 50000#32) w = w := by
  rw [slt_zero_of_sge w h, select_zero]

/-- A word below 50000, read signed, is at most 49999. -/
private theorem sle_of_slt (w : BitVec 32) (h : IntOp.cmpi .slt w 50000#32 = 1#1) : IntOp.cmpi .sle w 49999#32 = 1#1 := by
  have h' : w.slt 50000#32 = true := (ofBool_eq_one_iff _).1 h
  have h'' : w.toInt < (50000#32 : BitVec 32).toInt := of_decide_eq_true h'
  have e1 : (50000#32 : BitVec 32).toInt = 50000 := toInt_ofNat_small 50000 (by norm_num)
  have e2 : (49999#32 : BitVec 32).toInt = 49999 := toInt_ofNat_small 49999 (by norm_num)
  have e : w.sle 49999#32 = true := decide_eq_true (by rw [e2]; rw [e1] at h''; omega)
  show BitVec.ofBool (w.sle 49999#32) = 1#1
  rw [e]; rfl

end Words

/-! ## The staged arrays as terms -/

section Terms

variable {F : FTy → Type} [FloatOps F] (m : (ℓ : Loc nD τ sig) → Buf (Elt F) ℓ) (c : Dev nD)

/-- The test that a wrapped index column lies in `[0, 49999]`, one bit per row. -/
def maskL (W : IVec S16384x1 32) : IVec S16384 1 :=
  Host.reduce IntOp.andi
    (andi (cmpi .sge W (broadcastInDim S16384x1 ![] bcast_S_S16384x1 (constantI S_ 32 0#32)))
      (cmpi .sle W (broadcastInDim S16384x1 ![0, 1] bcast_S1x1_S16384x1_0_1 (broadcastInDim S1x1 ![1] bcast_S1_S1x1_1 (constantI S1 32 49999#32)))))
    (constantI S_ 1 1#1) reducesTo_S16384x1_S16384_d1 h_S_

/-- The first gather's range test is the test of the reference's wrapped label column. -/
theorem m12_term : (V m c main_call0_v12 : IVec S16384 1) = maskL (Cert.ReferenceIdeal.Read.val_main_v6 (F := F) (labelsArg m c)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results_simp
  (try simp only [StableHlo.TRef.ofBuf, StableHlo.TRef.toBuf, cast_eq])
  rfl

/-- The gathered weight rows, before the fill, are the reference's gathered rows. -/
theorem g13_term : (V m c main_call0_v13 : FVec F S16384x256 .f32) = Cert.ReferenceIdeal.Read.val_main_v7 (F := F) (labelsArg m c) (weightArg m c) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results_simp
  (try simp only [StableHlo.TRef.ofBuf, StableHlo.TRef.toBuf, cast_eq])
  rfl

/-- The filled gather of the weight rows: the gathered rows where the test holds, the fill elsewhere. -/
theorem v39_split : (V m c main_v39 : FVec F S16384x256 .f32) =
    select (broadcastInDim S16384x256 ![0] bcast_S16384_S16384x256_0 (V m c main_call0_v12 : IVec S16384 1))
      (V m c main_call0_v13 : FVec F S16384x256 .f32)
      (broadcastInDim S16384x256 ![] bcast_S_S16384x256 (constant S_ .f32 0x7FC00000#32)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results_simp
  (try simp only [StableHlo.TRef.ofBuf, StableHlo.TRef.toBuf, cast_eq])

/-- The staged true-class weight rows: the filled gather in the narrower float format. -/
theorem v40_split : (V m c main_v40 : FVec F S16384x256 .bf16) = truncf .bf16 (V m c main_v39 : FVec F S16384x256 .f32) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results_simp
  (try simp only [StableHlo.TRef.ofBuf, StableHlo.TRef.toBuf, cast_eq])

/-- The second gather's range test is the test of the reference's second wrapped label column. -/
theorem m12b_term : (V m c main_call1_v12 : IVec S16384 1) = maskL (Cert.ReferenceIdeal.Read.val_main_v15 (F := F) (labelsArg m c)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results_simp
  (try simp only [StableHlo.TRef.ofBuf, StableHlo.TRef.toBuf, cast_eq])
  rfl

/-- The gathered biases, before the fill, are the reference's gathered biases. -/
theorem g13b_term : (V m c main_call1_v13 : FVec F S16384 .f32) = Cert.ReferenceIdeal.Read.val_main_v16 (F := F) (labelsArg m c) (biasArg m c) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results_simp
  (try simp only [StableHlo.TRef.ofBuf, StableHlo.TRef.toBuf, cast_eq])
  rfl

/-- The log expected counts of the labels are the reference's. -/
theorem v19_term : (V m c main_v19 : FVec F S16384 .f32) = Cert.ReferenceIdeal.Read.val_main_v36 (F := F) (labelsArg m c) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results_simp
  (try simp only [StableHlo.TRef.ofBuf, StableHlo.TRef.toBuf, cast_eq])
  rfl

/-- The filled gather of the biases. -/
theorem v41_split : (V m c main_v41 : FVec F S16384 .f32) =
    select (V m c main_call1_v12 : IVec S16384 1) (V m c main_call1_v13 : FVec F S16384 .f32)
      (broadcastInDim S16384 ![] bcast_S_S16384 (constant S_ .f32 0x7FC00000#32)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results_simp
  (try simp only [StableHlo.TRef.ofBuf, StableHlo.TRef.toBuf, cast_eq])

/-- The staged true-class column: the filled gathered bias minus the log expected count, as a column. -/
theorem v43_split : (V m c main_v43 : FVec F S16384x1 .f32) =
    shapeCast S16384x1 (subf (V m c main_v41 : FVec F S16384 .f32) (V m c main_v19 : FVec F S16384 .f32)) shapeCasts_S16384_S16384x1 := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results_simp
  (try simp only [StableHlo.TRef.ofBuf, StableHlo.TRef.toBuf, cast_eq])
  rfl

end Terms

/-! ## Reading them at an index -/

section Reads

variable {F : FTy → Type} [FloatOps F]

/-- With the wrapped index of row `b` in `[0, 49999]`, the test's bit for row `b` is one. -/
theorem maskL_one (W : IVec S16384x1 32) (b : Fin 16384)
    (h0 : IntOp.cmpi .sge (W (ix2 b (0 : Fin 1))) 0#32 = 1#1) (h1 : IntOp.cmpi .sle (W (ix2 b (0 : Fin 1))) 49999#32 = 1#1) :
    maskL W (ix1 b) = 1#1 := by
  unfold maskL
  refine reduce_andi_one _ _ _ _ _ rfl (fun i hi => ?_)
  have h2 := Shape.ReducesTo.drop_apply_val_of_eq reducesTo_S16384x1_S16384_d1 i 0 0
  have h3 := congrArg (fun j : S16384.Idx => (j 0).val) hi
  have e0 : i 0 = b := Fin.ext (h2.symm.trans h3)
  have h4 : (i 1).val < 1 := idx2_lt1 i
  have e1 : i 1 = (0 : Fin 1) := Fin.ext (by show (i 1).val = 0; omega)
  have e : i = ix2 b (0 : Fin 1) := by
    funext a
    match a with
    | ⟨0, _⟩ => exact e0
    | ⟨1, _⟩ => exact e1
  rw [e]
  show IntOp.andi (IntOp.cmpi .sge (W (ix2 b (0 : Fin 1))) 0#32) (IntOp.cmpi .sle (W (ix2 b (0 : Fin 1))) 49999#32) = 1#1
  rw [h0, h1]; rfl

/-- A vector laid along the rows of a `[16384, 256]` array reads, at `(b, d)`, the vector at `b`. -/
theorem bcastRow_apply {α : Type} (v : S16384.Idx → α) (b : Fin 16384) (d : Fin 256) :
    broadcastInDim S16384x256 ![0] bcast_S16384_S16384x256_0 v (ix2 b d) = v (ix1 b) :=
  broadcastInDim_apply _ bcast_S16384_S16384x256_0 v (ix2 b d) (ix1 b) (fun a => match a with
    | ⟨0, _⟩ => by show b.val = if (16384 : Nat) = 1 then 0 else b.val; rw [if_neg (by decide)])

/-- A vector cast to a column reads, at `(b, 0)`, the vector at `b`. -/
theorem castCol_apply {α : Type} (v : S16384.Idx → α) (b : Fin 16384) :
    shapeCast S16384x1 v shapeCasts_S16384_S16384x1 (ix2 b (0 : Fin 1)) = v (ix1 b) :=
  shapeCast_apply v shapeCasts_S16384_S16384x1 (ix2 b (0 : Fin 1)) (ix1 b) (by
    rw [Shape.rowMajor_val_two, Shape.rowMajor_val_one]
    show b.val = b.val * 1 + 0
    omega)

/-- The reference's first wrapped label column at row `b` is the label, when the label is at least zero. -/
theorem wrapA_apply (x1 : (⟨Cert.ReferenceIdeal.S16384x1, .i32⟩ : BufTy).Contents (Elt F)) (b : Fin 16384)
    (h : IntOp.cmpi .sge (x1 (ix2 b (0 : Fin 1))) 0#32 = 1#1) :
    Cert.ReferenceIdeal.Read.val_main_v6 (F := F) x1 (ix2 b (0 : Fin 1)) = x1 (ix2 b (0 : Fin 1)) := by
  rw [Cert.ReferenceIdeal.Read.val_main_v6_apply, Cert.ReferenceIdeal.Read.val_main_v5_apply, Cert.ReferenceIdeal.Read.val_main_v2_apply,
    Cert.ReferenceIdeal.Read.val_main_v4_apply, Cert.ReferenceIdeal.Read.val_main_v0_apply, Cert.ReferenceIdeal.Read.val_main_v1_apply,
    Cert.ReferenceIdeal.Read.val_main_v3_apply, Cert.ReferenceIdeal.Read.val_main_c_apply, Cert.ReferenceIdeal.Read.val_main_c_0_apply]
  have e : Cert.ReferenceIdeal.Read.idx_main_v0 (Cert.ReferenceIdeal.Read.idx_main_v6 (ix2 b (0 : Fin 1))) = ix2 b (0 : Fin 1) := by
    funext a
    match a with
    | ⟨0, _⟩ => apply Fin.ext; show b.val / 1 = b.val; omega
    | ⟨1, _⟩ => rfl
  rw [e]
  exact wrap_id _ h

/-- The reference's second wrapped label column at row `b` is the label, when the label is at least zero. -/
theorem wrapB_apply (x1 : (⟨Cert.ReferenceIdeal.S16384x1, .i32⟩ : BufTy).Contents (Elt F)) (b : Fin 16384)
    (h : IntOp.cmpi .sge (x1 (ix2 b (0 : Fin 1))) 0#32 = 1#1) :
    Cert.ReferenceIdeal.Read.val_main_v15 (F := F) x1 (ix2 b (0 : Fin 1)) = x1 (ix2 b (0 : Fin 1)) := by
  rw [Cert.ReferenceIdeal.Read.val_main_v15_apply, Cert.ReferenceIdeal.Read.val_main_v14_apply, Cert.ReferenceIdeal.Read.val_main_v11_apply,
    Cert.ReferenceIdeal.Read.val_main_v13_apply, Cert.ReferenceIdeal.Read.val_main_v0_apply, Cert.ReferenceIdeal.Read.val_main_v10_apply,
    Cert.ReferenceIdeal.Read.val_main_v12_apply, Cert.ReferenceIdeal.Read.val_main_c_1_apply, Cert.ReferenceIdeal.Read.val_main_c_2_apply]
  have e : Cert.ReferenceIdeal.Read.idx_main_v0 (Cert.ReferenceIdeal.Read.idx_main_v15 (ix2 b (0 : Fin 1))) = ix2 b (0 : Fin 1) := by
    funext a
    match a with
    | ⟨0, _⟩ => apply Fin.ext; show b.val / 1 = b.val; omega
    | ⟨1, _⟩ => rfl
  rw [e]
  exact wrap_id _ h

end Reads

variable (m : (ℓ : Loc nD τ sig) → Buf (Elt Ideal) ℓ) (c : Dev nD)

theorem wtrue_apply (hT : ∀ b : Fin 16384, Cert.Nce.InRange (labelsArg m c (ix2 b (0 : Fin 1)))) (b : Fin 16384) (d : Fin 256) :
    wtrueArr m c (ix2 b d) = Cert.ReferenceIdeal.Read.val_main_v7 (F := Ideal) (labelsArg m c) (weightArg m c) (ix2 b d) := by
  show V m c main_v40 (ix2 b d) = _
  rw [v40_split, v39_split, m12_term, g13_term, truncf_apply, select_apply, bcastRow_apply]
  have hw := wrapA_apply (F := Ideal) (labelsArg m c) b (hT b).1
  rw [maskL_one _ b (by rw [hw]; exact (hT b).1) (by rw [hw]; exact sle_of_slt _ (hT b).2), select_one]

theorem tb_apply (hT : ∀ b : Fin 16384, Cert.Nce.InRange (labelsArg m c (ix2 b (0 : Fin 1)))) (b : Fin 16384) :
    tbArr m c (ix2 b (0 : Fin 1))
      = Cert.ReferenceIdeal.Read.val_main_v16 (F := Ideal) (labelsArg m c) (biasArg m c) (ix1 b)
        - Cert.ReferenceIdeal.Read.val_main_v36 (F := Ideal) (labelsArg m c) (ix1 b) := by
  show V m c main_v43 (ix2 b (0 : Fin 1)) = _
  rw [v43_split, v41_split, m12b_term, g13b_term, v19_term, castCol_apply, subf_apply, select_apply]
  have hw := wrapB_apply (F := Ideal) (labelsArg m c) b (hT b).1
  rw [maskL_one _ b (by rw [hw]; exact (hT b).1) (by rw [hw]; exact sle_of_slt _ (hT b).2), select_one]

end Cert.KernelIdeal.NceHost

end
-- ==== Proof.KerHostS.lean ====
/-
  The two arrays the kernel's launch stages from the SAMPLED class indices, read at an index, when every sampled index is in
  range.

  Before the launch the kernel gathers with a fill: it wraps a negative index by adding 50000, gathers with the index clamped
  into the table, and replaces the gathered entry by a fill value wherever the wrapped index is outside `[0, 49999]`.  With
  the index in `[0, 50000)` the wrap is the identity and the test holds, so the gathered entry stands, and it is the
  reference's gather of the same table at the same wrapped index.  The log expected counts are the same chain of operations
  on the same indices in both programs.  So the transposed sampled weights at (d, s) are the reference's gathered sampled row s
  at d (the change of float format the identity), and the sampled row is the reference's gathered sampled bias minus its log
  expected count.
-/
import proofs.«413751_j66606352827120_3_alg».proof.Proof.KerNames
import proofs.«413751_j66606352827120_3_alg».proof.Proof.Gen.ReferenceIdeal.Read
import Idealize.ShloMosaic.Lib.ValueLayout
import Idealize.ShloMosaic.Lib.Pipeline.Value
import Idealize.ShloMosaic.Lib.StableHlo.Predicate
import Idealize.ShloMosaic.Lib.ReduceAll

set_option maxRecDepth 16384

noncomputable section

namespace Cert.KernelIdeal.NceHostS

open Cert.KernelIdeal Cert.KernelIdeal.Gen Cert.KernelIdeal.Nce Idealize.ShloMosaic Idealize.ShloMosaic.TcCoe Idealize.SL.Sem Idealize.ShloMosaic.ValueIdx

/-- Whether each entry of a column of class indices lies in the table's range `[0, 49999]` (signed): the conjunction over the
    unit axis of `0 ≤ w` and `w ≤ 49999`. -/
private def inTable (v : IVec S4096x1 32) : IVec S4096 1 :=
  Host.reduce IntOp.andi
    (andi (cmpi .sge v (broadcastInDim S4096x1 ![] bcast_S_S4096x1 (constantI S_ 32 0#32)))
      (cmpi .sle v (broadcastInDim S4096x1 ![0, 1] bcast_S1x1_S4096x1_0_1 (broadcastInDim S1x1 ![1] bcast_S1_S1x1_1 (constantI S1 32 49999#32)))))
    (constantI S_ 1 1#1) reducesTo_S4096x1_S4096_d1 h_S_

section Terms

variable {F : FTy → Type} [FloatOps F] (m : (ℓ : Loc nD τ sig) → Buf (Elt F) ℓ) (c : Dev nD)

/-- The transposed sampled weights as staged: the reference's gathered sampled rows where the wrapped index is in the table and
    the fill elsewhere, transposed, in the narrower float format. -/
private theorem wsampT_term : (wsampTArr m c : FVec F S256x4096 .bf16) =
    truncf .bf16 (transpose S256x4096 [1, 0]
      (select (broadcastInDim S4096x256 ![0] bcast_S4096_S4096x256_0 (inTable (Cert.ReferenceIdeal.Read.val_main_v43 (F := F) (sampledArg m c))))
        (Cert.ReferenceIdeal.Read.val_main_v44 (F := F) (sampledArg m c) (weightArg m c))
        (broadcastInDim S4096x256 ![] bcast_S_S4096x256 (constant (F := F) S_ .f32 0x7FC00000#32)))
      transposes_S4096x256_S256x4096_1_0) bitsLt_bf16_f32 := by
  show V m c main_v49 = _
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results_simp
  (try simp only [StableHlo.TRef.ofBuf, StableHlo.TRef.toBuf, cast_eq])
  rfl

/-- The sampled row as staged: the reference's gathered sampled biases where the wrapped index is in the table and the fill
    elsewhere, minus the log expected counts, as one row. -/
private theorem adj_term : (adjArr m c : FVec F S1x4096 .f32) =
    shapeCast S1x4096
      (subf (select (inTable (Cert.ReferenceIdeal.Read.val_main_v51 (F := F) (sampledArg m c)))
          (Cert.ReferenceIdeal.Read.val_main_v52 (F := F) (sampledArg m c) (biasArg m c))
          (broadcastInDim S4096 ![] bcast_S_S4096 (constant (F := F) S_ .f32 0x7FC00000#32)))
        (Cert.ReferenceIdeal.Read.val_main_v74 (F := F) (sampledArg m c)))
      shapeCasts_S4096_S1x4096 := by
  show V m c main_v47 = _
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results_simp
  (try simp only [StableHlo.TRef.ofBuf, StableHlo.TRef.toBuf, cast_eq])
  rfl

end Terms

/-! ## Words in range -/

private theorem toInt_0 : (0#32 : BitVec 32).toInt = 0 := by decide
private theorem toInt_49999 : (49999#32 : BitVec 32).toInt = 49999 := by decide
private theorem toInt_50000 : (50000#32 : BitVec 32).toInt = 50000 := by decide

/-- A nonnegative index is not wrapped. -/
private theorem wrap_id {w : BitVec 32} (h : Cert.Nce.InRange w) :
    Scalar.select (IntOp.cmpi .slt w 0#32) (IntOp.addi w 50000#32) w = w := by
  have h0 := IntOp.cmpi_sge.1 h.1
  have hn : ¬IntOp.cmpi .slt w 0#32 = 1#1 := fun e => by
    have h1 := IntOp.cmpi_slt.1 e
    omega
  rw [eq_zero_of_ne_one hn, select_zero]

/-- An index below 50000 is at most 49999. -/
private theorem sle_of_inRange {w : BitVec 32} (h : Cert.Nce.InRange w) : IntOp.cmpi .sle w 49999#32 = 1#1 := by
  have h1 := IntOp.cmpi_slt.1 h.2
  rw [toInt_50000] at h1
  rw [IntOp.cmpi_sle, toInt_49999]
  omega

/-- A conjunction from one over a list of ones is one. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- A column all of whose entries are in `[0, 49999]` passes the table test everywhere. -/
private theorem inTable_one (v : IVec S4096x1 32)
    (hv : ∀ i, IntOp.cmpi .sge (v i) 0#32 = 1#1 ∧ IntOp.cmpi .sle (v i) 49999#32 = 1#1) (j : S4096.Idx) : inTable v j = 1#1 := by
  unfold inTable
  rw [Host.reduce_eq_foldl]
  exact foldl_andi_one _ _ fun i _ => IntOp.andi_eq_one.2 ⟨(hv i).1, (hv i).2⟩

section Wrapped

variable (x2 : IVec S4096 32) (hS : ∀ s : Fin 4096, Cert.Nce.InRange (x2 (ix1 s)))
include hS

/-- With every sampled index in range, the wrapped index column the weight rows are gathered at is the indices themselves. -/
private theorem col43 (s : Fin 4096) (u : Fin 1) : Cert.ReferenceIdeal.Read.val_main_v43 (F := Ideal) x2 (ix2 s u) = x2 (ix1 s) := by
  have e : Cert.ReferenceIdeal.Read.idx_main_v43 (ix2 s u) = ix1 s := funext fun a => Fin.ext (by match a with | ⟨0, _⟩ => rfl)
  rw [Cert.ReferenceIdeal.Read.val_main_v43_apply, e, Cert.ReferenceIdeal.Read.val_main_v42_apply,
    Cert.ReferenceIdeal.Read.val_main_v39_apply, Cert.ReferenceIdeal.Read.val_main_v41_apply,
    Cert.ReferenceIdeal.Read.val_main_v38_apply, Cert.ReferenceIdeal.Read.val_main_v40_apply,
    Cert.ReferenceIdeal.Read.val_main_c_7_apply, Cert.ReferenceIdeal.Read.val_main_c_8_apply]
  exact wrap_id (hS s)

/-- Likewise the column the biases are gathered at. -/
private theorem col51 (s : Fin 4096) (u : Fin 1) : Cert.ReferenceIdeal.Read.val_main_v51 (F := Ideal) x2 (ix2 s u) = x2 (ix1 s) := by
  have e : Cert.ReferenceIdeal.Read.idx_main_v51 (ix2 s u) = ix1 s := funext fun a => Fin.ext (by match a with | ⟨0, _⟩ => rfl)
  rw [Cert.ReferenceIdeal.Read.val_main_v51_apply, e, Cert.ReferenceIdeal.Read.val_main_v50_apply,
    Cert.ReferenceIdeal.Read.val_main_v47_apply, Cert.ReferenceIdeal.Read.val_main_v49_apply,
    Cert.ReferenceIdeal.Read.val_main_v46_apply, Cert.ReferenceIdeal.Read.val_main_v48_apply,
    Cert.ReferenceIdeal.Read.val_main_c_9_apply, Cert.ReferenceIdeal.Read.val_main_c_10_apply]
  exact wrap_id (hS s)

private theorem inTable43 (j : S4096.Idx) : inTable (Cert.ReferenceIdeal.Read.val_main_v43 (F := Ideal) x2) j = 1#1 :=
  inTable_one _ (fun i => by
    obtain ⟨a, b, rfl⟩ : ∃ (a : Fin 4096) (b : Fin 1), i = ix2 a b := ⟨i 0, i 1, eq_ix2 i⟩
    rw [col43 x2 hS]
    exact ⟨(hS _).1, sle_of_inRange (hS _)⟩) j

private theorem inTable51 (j : S4096.Idx) : inTable (Cert.ReferenceIdeal.Read.val_main_v51 (F := Ideal) x2) j = 1#1 :=
  inTable_one _ (fun i => by
    obtain ⟨a, b, rfl⟩ : ∃ (a : Fin 4096) (b : Fin 1), i = ix2 a b := ⟨i 0, i 1, eq_ix2 i⟩
    rw [col51 x2 hS]
    exact ⟨(hS _).1, sle_of_inRange (hS _)⟩) j

end Wrapped

variable (m : (ℓ : Loc nD τ sig) → Buf (Elt Ideal) ℓ) (c : Dev nD)

theorem wsampT_apply (hS : ∀ s : Fin 4096, Cert.Nce.InRange (sampledArg m c (ix1 s))) (d : Fin 256) (s : Fin 4096) :
    wsampTArr m c (ix2 d s) = Cert.ReferenceIdeal.Read.val_main_v44 (F := Ideal) (sampledArg m c) (weightArg m c) (ix2 s d) := by
  rw [wsampT_term m c, truncf_apply, transpose_ix2_apply, select_apply,
    broadcastInDim_apply (![0]) bcast_S4096_S4096x256_0 _ (ix2 s d) (ix1 s) (fun a => match a with
      | ⟨0, _⟩ => by show s.val = if (4096 : Nat) = 1 then 0 else s.val; rw [if_neg (by decide)]),
    inTable43 _ hS, select_one]

theorem adj_apply (hS : ∀ s : Fin 4096, Cert.Nce.InRange (sampledArg m c (ix1 s))) (s : Fin 4096) :
    adjArr m c (ix2 (0 : Fin 1) s)
      = Cert.ReferenceIdeal.Read.val_main_v52 (F := Ideal) (sampledArg m c) (biasArg m c) (ix1 s)
        - Cert.ReferenceIdeal.Read.val_main_v74 (F := Ideal) (sampledArg m c) (ix1 s) := by
  rw [adj_term m c, shapeCast_a_1a_apply, subf_apply, select_apply, inTable51 _ hS, select_one]

end Cert.KernelIdeal.NceHostS

end
-- ==== Proof.PreDecode.lean ====
/-
  The precondition read at an index: every true-class label and every sampled class index lies in `[0, 50000)`.

  The precondition is the conjunction of three finiteness tests on the float arguments and, for each of the two index
  arguments, the conjunction over all its entries of `0 ≤ w` and `w < 50000` (signed).  A conjunction over all entries that is
  one says each entry's test is one.
-/
import proofs.«413751_j66606352827120_3_alg».proof.Defs
import proofs.«413751_j66606352827120_3_alg».proof.Proof.Gen.KernelIdeal
import proofs.«413751_j66606352827120_3_alg».proof.Proof.Gen.Pre_finite_inputs
import proofs.«413751_j66606352827120_3_alg».proof.Proof.NceSpec
import Idealize.ShloMosaic.Lib.ValueIdx
import Idealize.ShloMosaic.Lib.ReduceAll
import Idealize.ShloMosaic.Lib.StableHlo.Predicate

noncomputable section

namespace Cert.KernelIdeal.NcePre

open Cert.KernelIdeal Idealize.ShloMosaic Idealize.ShloMosaic.TcCoe Idealize.SL.Sem Idealize.ShloMosaic.ValueIdx

/-- Under the precondition the labels and the sampled indices are in range, on every device. -/
theorem ranges (m : (ℓ : Loc nD τ sig) → Buf (Elt Ideal) ℓ) (h : Cert.Pre_KernelIdeal m) (c : Dev nD) :
    (∀ b : Fin 16384, Cert.Nce.InRange ((m ((c.tc : Thread nD τ).loc main_arg1) : IVec S16384x1 32) (ix2 b (0 : Fin 1))))
    ∧ (∀ s : Fin 4096, Cert.Nce.InRange ((m ((c.tc : Thread nD τ).loc main_arg2) : IVec S4096 32) (ix1 s))) := by
  -- the rank-0 result has one index
  have inst : Subsingleton Cert.Pre_finite_inputs.S_.Idx := ⟨fun a b => funext fun d => d.elim0⟩
  -- the precondition at its one index: ((floats ∧ labels) ∧ samples) = 1
  have e := congrFun (h c) ix0
  unfold Cert.Pre_finite_inputs.fn Cert.Pre_finite_inputs.fn_part1 at e
  obtain ⟨e20, e26⟩ := IntOp.andi_eq_one.1 e
  obtain ⟨-, e19⟩ := IntOp.andi_eq_one.1 e20
  refine ⟨fun b => ?_, fun s => ?_⟩
  · -- the conjunction over all labels is one, so the test of label `b` is one; the bounds it compares with are the
    -- scalars 0 and 50000 read everywhere
    have hb := Host.reduce_andi_all _ _ _ _ ix0 e19 (ix2 b (0 : Fin 1))
    obtain ⟨h0, h1⟩ := IntOp.andi_eq_one.1 hb
    exact ⟨h0, h1⟩
  · -- likewise for sample `s`
    have hs := Host.reduce_andi_all _ _ _ _ ix0 e26 (ix1 s)
    obtain ⟨h0, h1⟩ := IntOp.andi_eq_one.1 hs
    exact ⟨h0, h1⟩

end Cert.KernelIdeal.NcePre

end
-- ==== Proof.RefRow.lean ====
/-
  The reference's loss of example `b`, and its mean, over the extended reals.

  The reference gathers the true-class weight row and bias and the 4096 sampled weight rows and biases, forms the true logit
  and the 4096 sampled logits of the example as `(dot + bias) - logq`, takes the label-one cross-entropy of the first and the
  label-zero cross-entropies of the others, and adds the first to the sum of the others: the per-example loss of
  `Cert.Nce.perExampleR`, over the gathered rows, biases and log expected counts left as the reference's own stages.  Its
  result is the sum of the 16384 per-example losses divided by 16384 (`meanOf`).
-/
import proofs.«413751_j66606352827120_3_alg».proof.Proof.Gen.ReferenceIdeal.Read
import proofs.«413751_j66606352827120_3_alg».proof.Proof.NceSpec
import Idealize.ShloMosaic.Lib.ValueIdx

noncomputable section

namespace Cert.ReferenceIdeal.NceRow

open Cert.ReferenceIdeal Cert.ReferenceIdeal.Gen Cert.ReferenceIdeal.Read Idealize.ShloMosaic Idealize.ShloMosaic.ValueIdx

/-- The mean over the 16384 examples as the reference takes it: the host's sum from zero, divided by the constant 16384. -/
def meanOf {F : FTy → Type} [FloatOps F] (v : FVec F S16384 .f32) : FVec F S_ .f32 :=
  Host.divf (Host.reduceAdd v (constant (F := F) S_ .f32 0x00000000#32) reducesTo_S16384_S_d0 h_S_) (constant (F := F) S_ .f32 0x46800000#32)

/-- The reference's result is the mean of its per-example losses. -/
theorem result_eq {F : FTy → Type} [FloatOps F] (x0 : (⟨S16384x256, .f32⟩ : BufTy).Contents (Elt F)) (x1 : (⟨S16384x1, .i32⟩ : BufTy).Contents (Elt F))
    (x2 : (⟨S4096, .i32⟩ : BufTy).Contents (Elt F)) (x3 : (⟨S50000x256, .f32⟩ : BufTy).Contents (Elt F)) (x4 : (⟨S50000, .f32⟩ : BufTy).Contents (Elt F)) :
    val_main_v101 (F := F) x0 x1 x2 x3 x4 = meanOf (val_main_v99 (F := F) x0 x1 x2 x3 x4) := by
  rfl

/-- The pattern `0x3F800000` denotes the real one: sign `+`, exponent field 127 (the bias), significand field zero. -/
private theorem ofBits_one_f32 : Ideal.ofBits .f32 0x3F800000#32 = 1 := by
  simp [Ideal.ofBits, Ideal.ieee, -EReal.coe_mul]; norm_num

/-- Element `d` of row `b` of the elementwise product under the true-class row sum. -/
private theorem idx_row (b : Fin 16384) (d : Fin 256) : idx_main_v9 (ix1 b) d = ix2 b d :=
  funext fun a => Fin.ext (by match a with | ⟨0, _⟩ => rfl | ⟨1, _⟩ => rfl)

/-- The left operand of the contraction at result element `(b, k)`, term `d`: the embedding's `(b, d)`. -/
private theorem idx_lhs (b : Fin 16384) (k : Fin 4096) (d : Fin 256) : lidx_main_v45 (idx_main_v98 (ix1 b) k) d = ix2 b d :=
  funext fun a => Fin.ext (by match a with | ⟨0, _⟩ => rfl | ⟨1, _⟩ => rfl)

/-- The right operand of the contraction at result element `(b, k)`, term `d`: the sampled rows' `(k, d)`. -/
private theorem idx_rhs (b : Fin 16384) (k : Fin 4096) (d : Fin 256) : ridx_main_v45 (idx_main_v98 (ix1 b) k) d = ix2 k d :=
  funext fun a => Fin.ext (by match a with | ⟨0, _⟩ => rfl | ⟨1, _⟩ => rfl)

/-- The sampled biases broadcast along the examples: element `(b, k)` reads sample `k`. -/
private theorem idx_bias (b : Fin 16384) (k : Fin 4096) : idx_main_v53 (idx_main_v54 (idx_main_v98 (ix1 b) k)) = ix1 k :=
  funext fun a => Fin.ext (by match a with | ⟨0, _⟩ => rfl)

/-- The sampled log expected counts broadcast along the examples: element `(b, k)` reads sample `k`. -/
private theorem idx_logq (b : Fin 16384) (k : Fin 4096) : idx_main_v75 (idx_main_v76 (idx_main_v98 (ix1 b) k)) = ix1 k :=
  funext fun a => Fin.ext (by match a with | ⟨0, _⟩ => rfl)

/-- The reference's loss of example `b`. -/
theorem row (x0 : (⟨S16384x256, .f32⟩ : BufTy).Contents (Elt Ideal)) (x1 : (⟨S16384x1, .i32⟩ : BufTy).Contents (Elt Ideal))
    (x2 : (⟨S4096, .i32⟩ : BufTy).Contents (Elt Ideal)) (x3 : (⟨S50000x256, .f32⟩ : BufTy).Contents (Elt Ideal))
    (x4 : (⟨S50000, .f32⟩ : BufTy).Contents (Elt Ideal)) (b : Fin 16384) :
    val_main_v99 (F := Ideal) x0 x1 x2 x3 x4 (ix1 b)
      = Cert.Nce.perExampleR (fun d : Fin 256 => x0 (ix2 b d)) (fun d : Fin 256 => val_main_v7 (F := Ideal) x1 x3 (ix2 b d))
          (val_main_v16 (F := Ideal) x1 x4 (ix1 b)) (val_main_v36 (F := Ideal) x1 (ix1 b))
          (fun (s : Fin 4096) (d : Fin 256) => val_main_v44 (F := Ideal) x2 x3 (ix2 s d))
          (fun s : Fin 4096 => val_main_v52 (F := Ideal) x2 x4 (ix1 s)) (fun s : Fin 4096 => val_main_v74 (F := Ideal) x2 (ix1 s)) := by
  -- read the stages at example `b` (and, under the sum over the samples, at `(b, k)`), down to the argument, the gathers and
  -- the two log-expected-count stages
  simp only [val_main_v99_apply, val_main_v87_apply, val_main_v98_apply, val_main_v82_apply, val_main_v86_apply,
    val_main_v79_apply, val_main_v81_apply, val_main_v85_apply, val_main_v84_apply, val_main_v83_apply,
    val_main_v78_apply, val_main_v80_apply, val_main_cst_15_apply, val_main_cst_16_apply,
    val_main_v37_apply, val_main_v17_apply, val_main_v9_apply, val_main_v8_apply, val_main_cst_apply,
    val_main_v97_apply, val_main_v92_apply, val_main_v96_apply, val_main_v89_apply, val_main_v91_apply,
    val_main_v95_apply, val_main_v94_apply, val_main_v93_apply, val_main_v88_apply, val_main_v90_apply,
    val_main_cst_17_apply, val_main_cst_18_apply, val_main_cst_19_apply,
    val_main_v77_apply, val_main_v55_apply, val_main_v76_apply, val_main_v75_apply, val_main_v54_apply, val_main_v53_apply,
    val_main_v45_apply, idx_row, idx_lhs, idx_rhs, idx_bias, idx_logq]
  -- the operations as operations of the extended reals, the constants as `0` and `1`
  simp only [Ideal.addf_def, Ideal.subf_def, Ideal.mulf_def, Ideal.maximumf_def, Ideal.hostUnary_exp_def,
    Ideal.hostUnary_log1p_def, Ideal.hostNegf_def, Ideal.negf_def, Ideal.hostAbsf_def, Ideal.absf_def, Ideal.ofBits_def,
    Ideal.ofBits_zero_f32, ofBits_one_f32]
  unfold Cert.Nce.perExampleR Cert.Nce.xent Cert.Nce.softTail Cert.Nce.logitR
  rfl

end Cert.ReferenceIdeal.NceRow

end
-- ==== Proof.KerTail.lean ====
/-
  The kernel's run with its result named: the mean of the loss column as the launch leaves it.

  After the launch the program reshapes the [16384, 1] loss column to [16384], sums it from zero and divides by 16384; no other
  buffer the claim speaks of is written.  So every run ends with the result at the mean (`meanOf`) of the reshaped column the
  launch's output array holds after its last grid point, and with the five arguments as launched.
-/
import proofs.«413751_j66606352827120_3_alg».proof.Proof.KerNames
import proofs.«413751_j66606352827120_3_alg».proof.Proof.RefRow
import Idealize.ShloMosaic.Lib.Pipeline.Value
import Idealize.ShloMosaic.Lib.StableHlo.Run
import Idealize.ShloMosaic.Lib.Tactic

set_option maxRecDepth 16384

noncomputable section

namespace Cert.KernelIdeal.NceTail

open Cert.KernelIdeal Cert.KernelIdeal.Gen Cert.KernelIdeal.Nce Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- The launch's output array after its last grid point, as a [16384, 1] column. -/
abbrev outCol (c : Dev nD) : FVec F S16384x1 .f32 := (dats m 0 c).arrAt 5 cfg0.N

/-- The column reshaped to [16384], read at example `b`, is the column at (b, 0). -/
theorem reshape_col (v : FVec F S16384x1 .f32) (b : Fin 16384) :
    (shapeCast S16384 v shapeCasts_S16384x1_S16384 : FVec F S16384 .f32) (ix1 b) = v (ix2 b (0 : Fin 1)) := by
  exact shapeCast_apply v shapeCasts_S16384x1_S16384 (ix1 b) (ix2 b (0 : Fin 1)) (by
    rw [Shape.rowMajor_val_two, Shape.rowMajor_val_one]
    show b.val * 1 + 0 = b.val
    omega)

/-- What the host operations after the launch leave in the result buffer. -/
theorem tail_eq (c : Dev nD) :
    (Pipeline.afterTail₀ cfgs (dats m) 0 (V0 m) [hostOps1] c main_v53 : FVec F S_ .f32)
      = Cert.ReferenceIdeal.NceRow.meanOf (F := F) (shapeCast S16384 (outCol m c) shapeCasts_S16384x1_S16384) := by
  unfold Pipeline.afterTail₀
  show StableHlo.after hostOps1 _ (Proc.devRef .tc main_v53) = _
  after_results
  have h : Pipeline.withArrays (cfgs 0).spec c (V0 m c) (fun w => (dats m 0 c).arrAt w (cfgs 0).N) (Proc.devRef .tc main_v50)
      = outCol m c := Pipeline.withArrays_arr spec0 launch0.win.arr_inj c (V0 m c) _ 5
  rw [h]
  rfl

/-- The run, with the result named and the arguments unchanged. -/
theorem run_named : θ_run defs (onTc (τ := τ) (main (F := F))) ⟨m, fun _ => 0, ρ⟩ fun r => ∀ c : Dev nD,
      r.2.mem ((c.tc : Thread nD τ).loc main_v53)
        = Cert.ReferenceIdeal.NceRow.meanOf (F := F) (shapeCast S16384 (outCol m c) shapeCasts_S16384x1_S16384)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  exact (θ_run defs _ _).mono (fun r h c => ⟨
      ((h c).2 main_v53 (Pipeline.mem_restRefs_of main_v53 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.NceTail

end
-- ==== Proof.KerArray.lean ====
/-
  The kernel's loss column and its mean, over the extended reals.

  Grid point t of the one launch works on examples 1024 t … 1024 t + 1023: its blocks of the embedding, of the true-class weight
  rows and of the true-class column are those rows, and the transposed sampled weights and the sampled row are resident whole.
  Row r of the block it writes back is the loss of example 1024 t + r the kernel's way (`Cert.Nce.perExampleK`): the four
  chunk sums added one after the other onto zero, then the true-class term.  The sixteen blocks tile the [16384, 1] loss
  column, so after the launch the column holds every example's loss; the host operations after the launch reshape it to
  [16384], sum it from zero and divide by 16384.
-/
import proofs.«413751_j66606352827120_3_alg».proof.Proof.KerNames
import proofs.«413751_j66606352827120_3_alg».proof.Proof.KerBody
import proofs.«413751_j66606352827120_3_alg».proof.Proof.KerPay
import proofs.«413751_j66606352827120_3_alg».proof.Proof.KerHost
import proofs.«413751_j66606352827120_3_alg».proof.Proof.KerHostS
import proofs.«413751_j66606352827120_3_alg».proof.Proof.PreDecode
import proofs.«413751_j66606352827120_3_alg».proof.Proof.RefRow
import proofs.«413751_j66606352827120_3_alg».proof.Proof.KerTail
import Idealize.ShloMosaic.Lib.Pipeline.Value
import Idealize.ShloMosaic.Lib.StableHlo.Run
import Idealize.ShloMosaic.Lib.Tactic

set_option maxRecDepth 16384

noncomputable section

namespace Cert.KernelIdeal.NceArr

open Cert.KernelIdeal Cert.KernelIdeal.Gen Cert.KernelIdeal.Nce Idealize.ShloMosaic Idealize.ShloMosaic.TcCoe Idealize.SL.Sem
open Idealize.ShloMosaic.ValueIdx
open Idealize.ShloMosaic.Pipeline (Dat)

/-! ## One row of one block, as a function of the block's inputs -/

theorem chunkW_apply (x3 : FVec Ideal S256x4096 .bf16) (k : Fin 4) (d : Fin 256) (l : Fin 1024) :
    NceBody.chunkW (F := Ideal) x3 k (ix2 d l) = x3 (ix2 d (Cert.Nce.chunkIx k l)) := rfl

theorem chunkA_apply (x4 : FVec Ideal S1x4096 .f32) (k : Fin 4) (l : Fin 1024) :
    NceBody.chunkA (F := Ideal) x4 k (ix2 (0 : Fin 1) l) = x4 (ix2 (0 : Fin 1) (Cert.Nce.chunkIx k l)) := rfl

/-- Row `r` of the stored column is the loss, the kernel's way, of the example whose embedding row, true-class row, true-class
    bias-minus-logq and sampled data the block's inputs hold at that row. -/
theorem block_row (x0 : FVec Ideal S1024x256 .f32) (x1 : FVec Ideal S1024x256 .bf16) (x2 : FVec Ideal S1024x1 .f32)
    (x3 : FVec Ideal S256x4096 .bf16) (x4 : FVec Ideal S1x4096 .f32) (r : Fin 1024)
    (e wt : Fin 256 → EReal) (bt lt : EReal) (ws : Fin 4096 → Fin 256 → EReal) (bs ls : Fin 4096 → EReal)
    (h0 : ∀ d : Fin 256, x0 (ix2 r d) = e d) (h1 : ∀ d : Fin 256, x1 (ix2 r d) = wt d) (h2 : x2 (ix2 r (0 : Fin 1)) = bt - lt)
    (h3 : ∀ (d : Fin 256) (s : Fin 4096), x3 (ix2 d s) = ws s d) (h4 : ∀ s : Fin 4096, x4 (ix2 (0 : Fin 1) s) = bs s - ls s) :
    k0_pay4 (F := Ideal) x0 x1 x2 (NceBody.loopVal (F := Ideal) x0 x3 x4) (ix2 r (0 : Fin 1)) = Cert.Nce.perExampleK e wt bt lt ws bs ls := by
  rw [NcePay.pay4_apply]
  unfold NceBody.loopVal
  rw [NcePay.pay3_apply, NcePay.pay3_apply, NcePay.pay3_apply, NcePay.pay3_apply, NcePay.pay2_apply]
  unfold Cert.Nce.perExampleK Cert.Nce.chunkK Cert.Nce.logitK
  simp only [chunkW_apply, chunkA_apply, h0, h1, h2, h3, h4]

/-! ## The blocks of the five input windows -/

variable (m : (ℓ : Loc nD τ sig) → Buf (Elt Ideal) ℓ) (ρ : Dev nD → PrngReg)

theorem hN : cfg0.N = 16 := N_0

/-- The printed index maps over the sixteen points: the three row-blocked inputs and the output are at block (t, 0), the two
    resident inputs at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Example `1024 t + r`. -/
def rowOf (t : Fin cfg0.N) (r : Fin 1024) : Fin 16384 := ⟨1024 * t.val + r.val, by have := t.isLt; have := hN; omega⟩

theorem emb_read (c : Dev nD) (t : Fin cfg0.N) (r : Fin 1024) (d : Fin 256) :
    (iblk m c 0 t : FVec Ideal S1024x256 .f32) (ix2 r d) = embArr m c (ix2 (rowOf t r) d) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 1024 + 1 * r.val = 1024 * t.val + r.val; omega
  | ⟨1, _⟩ => show win0_0.index t (1 : Fin 2) * 256 + 1 * d.val = d.val; omega

theorem wtrue_read (c : Dev nD) (t : Fin cfg0.N) (r : Fin 1024) (d : Fin 256) :
    (iblk m c 1 t : FVec Ideal S1024x256 .bf16) (ix2 r d) = wtrueArr m c (ix2 (rowOf t r) d) := by
  obtain ⟨-, -, e0, e1, -⟩ := idx_facts t
  unfold iblk
  rw [View.read_apply]
  show V m c main_v40 _ = V m c main_v40 _
  congr 1
  funext a
  apply Fin.ext
  match a with
  | ⟨0, _⟩ => show win0_1.index t (0 : Fin 2) * 1024 + 1 * r.val = 1024 * t.val + r.val; omega
  | ⟨1, _⟩ => show win0_1.index t (1 : Fin 2) * 256 + 1 * d.val = d.val; omega

theorem tb_read (c : Dev nD) (t : Fin cfg0.N) (r : Fin 1024) :
    (iblk m c 2 t : FVec Ideal S1024x1 .f32) (ix2 r (0 : Fin 1)) = tbArr m c (ix2 (rowOf t r) (0 : Fin 1)) := by
  obtain ⟨-, -, -, -, e0, e1, -⟩ := idx_facts t
  unfold iblk
  rw [View.read_apply]
  show V m c main_v43 _ = V m c main_v43 _
  congr 1
  funext a
  apply Fin.ext
  match a with
  | ⟨0, _⟩ => show win0_2.index t (0 : Fin 2) * 1024 + 1 * r.val = 1024 * t.val + r.val; omega
  | ⟨1, _⟩ => show win0_2.index t (1 : Fin 2) * 1 + 1 * 0 = 0; omega

theorem wsampT_read (c : Dev nD) (t : Fin cfg0.N) (d : Fin 256) (s : Fin 4096) :
    (iblk m c 3 t : FVec Ideal S256x4096 .bf16) (ix2 d s) = wsampTArr m c (ix2 d s) := by
  obtain ⟨-, -, -, -, -, -, e0, e1, -⟩ := idx_facts t
  unfold iblk
  rw [View.read_apply]
  show V m c main_v49 _ = V m c main_v49 _
  congr 1
  funext a
  apply Fin.ext
  match a with
  | ⟨0, _⟩ => show win0_3.index t (0 : Fin 2) * 256 + 1 * d.val = d.val; omega
  | ⟨1, _⟩ => show win0_3.index t (1 : Fin 2) * 4096 + 1 * s.val = s.val; omega

theorem adj_read (c : Dev nD) (t : Fin cfg0.N) (s : Fin 4096) :
    (iblk m c 4 t : FVec Ideal S1x4096 .f32) (ix2 (0 : Fin 1) s) = adjArr m c (ix2 (0 : Fin 1) s) := by
  obtain ⟨-, -, -, -, -, -, -, -, e0, e1, -⟩ := idx_facts t
  unfold iblk
  rw [View.read_apply]
  show V m c main_v47 _ = V m c main_v47 _
  congr 1
  funext a
  apply Fin.ext
  match a with
  | ⟨0, _⟩ => show win0_4.index t (0 : Fin 2) * 1 + 1 * 0 = 0; omega
  | ⟨1, _⟩ => show win0_4.index t (1 : Fin 2) * 4096 + 1 * s.val = s.val; omega

/-! ## The loss column -/

/-- Example `b`'s loss the kernel's way, over the reference's gathered rows, biases and log expected counts of the launch
    arguments. -/
def lossAt (c : Dev nD) (b : Fin 16384) : EReal :=
  Cert.Nce.perExampleK (fun d : Fin 256 => embArg m c (ix2 b d))
    (fun d : Fin 256 => Cert.ReferenceIdeal.Read.val_main_v7 (F := Ideal) (labelsArg m c) (weightArg m c) (ix2 b d))
    (Cert.ReferenceIdeal.Read.val_main_v16 (F := Ideal) (labelsArg m c) (biasArg m c) (ix1 b))
    (Cert.ReferenceIdeal.Read.val_main_v36 (F := Ideal) (labelsArg m c) (ix1 b))
    (fun (s : Fin 4096) (d : Fin 256) => Cert.ReferenceIdeal.Read.val_main_v44 (F := Ideal) (sampledArg m c) (weightArg m c) (ix2 s d))
    (fun s : Fin 4096 => Cert.ReferenceIdeal.Read.val_main_v52 (F := Ideal) (sampledArg m c) (biasArg m c) (ix1 s))
    (fun s : Fin 4096 => Cert.ReferenceIdeal.Read.val_main_v74 (F := Ideal) (sampledArg m c) (ix1 s))

/-- The [16384, 1] column of losses. -/
def lossCol (c : Dev nD) : FVec Ideal S16384x1 .f32 := fun i => lossAt m c ⟨(i 0).val, idx2_lt0 i⟩

/-- Row `r` of what point `t` leaves in the output block is the loss of example `1024 t + r`. -/
theorem outs_row (c0 : Dev nD) (hT : ∀ b : Fin 16384, Cert.Nce.InRange (labelsArg m c0 (ix2 b (0 : Fin 1))))
    (hS : ∀ s : Fin 4096, Cert.Nce.InRange (sampledArg m c0 (ix1 s))) (t : Fin cfg0.N) (r : Fin 1024) :
    (outsAt0 m c0 t : FVec Ideal S1024x1 .f32) (ix2 r (0 : Fin 1)) = lossAt m c0 (rowOf t r) := by
  unfold outsAt0
  rw [NceBody.out_eq]
  unfold lossAt
  refine block_row _ _ _ _ _ r _ _ _ _ _ _ _ (fun d => ?_) (fun d => ?_) ?_ (fun d s => ?_) (fun s => ?_)
  · rw [emb_read, embArr_eq]
  · rw [wtrue_read, NceHost.wtrue_apply m c0 hT]
  · rw [tb_read, NceHost.tb_apply m c0 hT]
  · rw [wsampT_read, NceHostS.wsampT_apply m c0 hS]
  · rw [adj_read, NceHostS.adj_apply m c0 hS]

/-! ## The blocks tile the column -/

/-- WHAT POINT `t` WRITES BACK is block `t` of the loss column. -/
theorem flushed_eq (c : Dev nD) (hT : ∀ b : Fin 16384, Cert.Nce.InRange (labelsArg m c (ix2 b (0 : Fin 1))))
    (hS : ∀ s : Fin 4096, Cert.Nce.InRange (sampledArg m c (ix1 s))) (t : Fin cfg0.N) :
    (dats m 0 c).flushed 5 t = ((cfg0.win 5).blk t).view.read (Elt Ideal) (lossCol m c) := by
  show (cfg0.win 5).cut (grid0.coords t) ((dats m 0 c).after 5 t) = _
  rw [after0_5]
  funext j
  obtain ⟨-, -, -, -, -, -, -, -, -, -, e0, e1⟩ := idx_facts t
  have hj0 : (j 0).val < 1024 := (j 0).isLt
  have hj1 : (j 1).val < 1 := (j 1).isLt
  obtain ⟨r, rfl⟩ : ∃ r : Fin 1024, j = ix2 r (0 : Fin 1) :=
    ⟨⟨(j 0).val, hj0⟩, funext fun a => by
      match a with
      | ⟨0, _⟩ => rfl
      | ⟨1, _⟩ => exact Fin.ext (by show (j 1).val = 0; omega)⟩
  show (outsAt0 m c t : FVec Ideal S1024x1 .f32) (ix2 r (0 : Fin 1)) = lossCol m c (((cfg0.win 5).blk t).view.emb (ix2 r (0 : Fin 1)))
  rw [outs_row m c hT hS t r]
  unfold lossCol
  congr 1
  apply Fin.ext
  show 1024 * t.val + r.val = win0_5.index t (0 : Fin 2) * 1024 + 1 * r.val
  omega

/-- An index of the column is in point `t`'s block iff each coordinate is in the block's range on its axis. -/
theorem mem_blk (t : Fin cfg0.N) (i : S16384x1.Idx) :
    i ∈ ((cfg0.win 5).blk t).view.set
      ↔ ∀ a : Fin 2, win0_5.index t a * S1024x1.size a ≤ (i a).val ∧ (i a).val < win0_5.index t a * S1024x1.size a + S1024x1.size a := by
  show i ∈ ((View.whole main_v50).slice (win0_5.rect t)).set ↔ _
  rw [View.set_slice_whole, Rect.mem_set_unit]
  exact Iff.rfl

/-- THE COLUMN after the launch: every example's loss (example `b` is in the block of point `b / 1024`). -/
theorem final (c : Dev nD) (hT : ∀ b : Fin 16384, Cert.Nce.InRange (labelsArg m c (ix2 b (0 : Fin 1))))
    (hS : ∀ s : Fin 4096, Cert.Nce.InRange (sampledArg m c (ix1 s))) :
    (dats m 0 c).arrAt 5 cfg0.N = lossCol m c :=
  (dats m 0 c).arrAt_eq_of_cover 5 (lossCol m c) (fun t _ => flushed_eq m c hT hS t) fun i => by
    have hi0 : (i 0).val < 16384 := (i 0).isLt
    have hi1 : (i 1).val < 1 := (i 1).isLt
    have hlt : (i 0).val / 1024 < cfg0.N := by rw [hN]; omega
    obtain ⟨-, -, -, -, -, -, -, -, -, -, e0, e1⟩ := idx_facts ⟨(i 0).val / 1024, hlt⟩
    refine ⟨⟨(i 0).val / 1024, hlt⟩, flush0_5 _, ?_⟩
    rw [mem_blk]
    intro a
    match a with
    | ⟨0, _⟩ =>
      show win0_5.index ⟨(i 0).val / 1024, hlt⟩ (0 : Fin 2) * 1024 ≤ (i 0).val
        ∧ (i 0).val < win0_5.index ⟨(i 0).val / 1024, hlt⟩ (0 : Fin 2) * 1024 + 1024
      rw [e0]
      show (i 0).val / 1024 * 1024 ≤ (i 0).val ∧ (i 0).val < (i 0).val / 1024 * 1024 + 1024
      omega
    | ⟨1, _⟩ =>
      show win0_5.index ⟨(i 0).val / 1024, hlt⟩ (1 : Fin 2) * 1 ≤ (i 1).val
        ∧ (i 1).val < win0_5.index ⟨(i 0).val / 1024, hlt⟩ (1 : Fin 2) * 1 + 1
      omega

/-! ## The column is the reference's per-example stage; the run -/

/-- The loss column reshaped to [16384] is the reference's vector of per-example losses of the same arguments: example by
    example, the loss the kernel's way is the loss the reference's way. -/
theorem col_eq (c : Dev nD) :
    (shapeCast S16384 (lossCol m c) shapeCasts_S16384x1_S16384 : FVec Ideal S16384 .f32)
      = Cert.ReferenceIdeal.Read.val_main_v99 (F := Ideal) (embArg m c) (labelsArg m c) (sampledArg m c) (weightArg m c) (biasArg m c) := by
  funext i
  obtain ⟨b, rfl⟩ : ∃ b : Fin 16384, i = ix1 b := ⟨i 0, eq_ix1 i⟩
  rw [NceTail.reshape_col, Cert.ReferenceIdeal.NceRow.row]
  unfold lossCol lossAt
  exact Cert.Nce.perExampleK_eq _ _ _ _ _ _ _

/-- THE KERNEL'S RUN under the precondition: the result is the reference's result term of the same arguments, the arguments
    unchanged. -/
theorem run (h : Cert.Pre_KernelIdeal m) : θ_run defs (onTc (τ := τ) (main (F := Ideal))) ⟨m, fun _ => 0, ρ⟩ fun r => ∀ c : Dev nD,
      r.2.mem ((c.tc : Thread nD τ).loc main_v53)
        = Cert.ReferenceIdeal.Read.val_main_v101 (F := Ideal) (embArg m c) (labelsArg m c) (sampledArg m c) (weightArg m c) (biasArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h' c => ⟨(h' c).1.trans (by
      obtain ⟨hT, hS⟩ := NcePre.ranges m h c
      show Cert.ReferenceIdeal.NceRow.meanOf (F := Ideal) (shapeCast S16384 ((dats m 0 c).arrAt 5 cfg0.N) shapeCasts_S16384x1_S16384) = _
      rw [final m c hT hS, col_eq, Cert.ReferenceIdeal.NceRow.result_eq]), (h' c).2⟩)
    (NceTail.run_named m ρ)

end Cert.KernelIdeal.NceArr

end
-- ==== Proof.lean ====
/-
  The noise-contrastive estimation loss: a kernel that never materialises the [16384, 4096] matrix of sampled logits against
  the plain reference, equal over the extended reals when every class index is in the table's range.

  Both programs gather the true-class and the sampled rows of the weight table and entries of the bias, compute the log
  expected counts of the classes by the same chain of operations, and return the mean over the 16384 examples of
  the label-one cross-entropy of the true logit plus the sum of the label-zero cross-entropies of the 4096 sampled logits.
  The reference forms each logit as (dot + bias) − logq and sums all samples at once; the kernel forms it as
  dot + (bias − logq), works on 1024 examples per grid point, sums the samples in four chunks of 1024 lanes carried through a
  loop, and adds the true-class term last.  On the extended reals these are the same number: addition is associative and
  commutative there and x·1 = x, x·0 = 0, 0 − x = −x hold without exception, so finiteness of the float arguments is never used.
  The index range is used once: the kernel's gather replaces an out-of-range row by a fill value where the reference clamps,
  and with every index in [0, 50000) the fill never applies.

  The three frames are the generated ones (the reference's is its generated run with the result dropped); the ideal pass rewrote
  nothing, so `preserves` is trivial; `algebraic` sets the kernel's run, whose result is stated as the reference's result term of
  the kernel's arguments, beside the reference's generated run.
-/
import proofs.«413751_j66606352827120_3_alg».proof.Defs
import proofs.«413751_j66606352827120_3_alg».proof.Proof.Gen.Kernel
import proofs.«413751_j66606352827120_3_alg».proof.Proof.Gen.Kernel.Skeleton
import proofs.«413751_j66606352827120_3_alg».proof.Proof.Gen.Kernel.Loops
import proofs.«413751_j66606352827120_3_alg».proof.Proof.Gen.Kernel.Launch
import proofs.«413751_j66606352827120_3_alg».proof.Proof.Gen.Kernel.Points
import proofs.«413751_j66606352827120_3_alg».proof.Proof.Gen.Kernel.Frame
import proofs.«413751_j66606352827120_3_alg».proof.Proof.Gen.KernelIdeal
import proofs.«413751_j66606352827120_3_alg».proof.Proof.Gen.KernelIdeal.Skeleton
import proofs.«413751_j66606352827120_3_alg».proof.Proof.Gen.KernelIdeal.Loops
import proofs.«413751_j66606352827120_3_alg».proof.Proof.Gen.KernelIdeal.Launch
import proofs.«413751_j66606352827120_3_alg».proof.Proof.Gen.KernelIdeal.Points
import proofs.«413751_j66606352827120_3_alg».proof.Proof.Gen.KernelIdeal.Frame
import proofs.«413751_j66606352827120_3_alg».proof.Proof.Gen.ReferenceIdeal
import proofs.«413751_j66606352827120_3_alg».proof.Proof.Gen.ReferenceIdeal.Run
import proofs.«413751_j66606352827120_3_alg».proof.Proof.Gen.ReferenceIdeal.Read
import proofs.«413751_j66606352827120_3_alg».proof.Proof.Gen.Pre_finite_inputs
import proofs.«413751_j66606352827120_3_alg».proof.Proof.KerArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's result term of the kernel's arguments: the kernel by its run under the
    precondition, the reference by its run from a memory that agrees on the arguments. -/
theorem algebraic : Cert.algebraic_KernelIdeal_ReferenceIdeal := by
  intro m ρ m' ρ' hpre hagree
  refine ⟨fun c => Cert.ReferenceIdeal.Read.val_main_v101 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.NceArr.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v101_eq, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
